-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part7 {F : FTy → Type} [FloatOps F] (main_v118 : IVec S_ 1) (main_v119 : FVec F S2048 .f32) : IVec S_ 1 :=
  let main_cst_46 : FVec F S_ .f32 := constant S_ .f32 0x7F800000#32
  let main_v120 : FVec F S2048 .f32 := broadcastInDim S2048 ![] bcast_S_S2048 main_cst_46
  let main_v121 : IVec S2048 1 := cmpf .olt main_v119 main_v120
  let main_c_47 : IVec S_ 1 := constantI S_ 1 1#1
  let main_v122 : IVec S_ 1 := (fun x v => Host.reduce IntOp.andi x v reducesTo_S2048_S_d0 h_S_) main_v121 main_c_47
  let main_v123 : IVec S_ 1 := andi main_v118 main_v122
  main_v123

def fn_part6 {F : FTy → Type} [FloatOps F] (main_arg21 : FVec F S2048x2048 .f32) (main_arg22 : FVec F S2048 .f32) (main_arg23 : FVec F S2048x2048 .f32) (main_arg24 : FVec F S2048 .f32) (main_v98 : IVec S_ 1) (main_v101 : IVec S2048 1) (main_c_39 : IVec S_ 1) : IVec S_ 1 :=
  let main_v102 : IVec S_ 1 := (fun x v => Host.reduce IntOp.andi x v reducesTo_S2048_S_d0 h_S_) main_v101 main_c_39
  let main_v103 : IVec S_ 1 := andi main_v98 main_v102
  let main_v104 : FVec F S2048x2048 .f32 := Host.absf main_arg21
  let main_cst_40 : FVec F S_ .f32 := constant S_ .f32 0x7F800000#32
  let main_v105 : FVec F S2048x2048 .f32 := broadcastInDim S2048x2048 ![] bcast_S_S2048x2048 main_cst_40
  let main_v106 : IVec S2048x2048 1 := cmpf .olt main_v104 main_v105
  let main_c_41 : IVec S_ 1 := constantI S_ 1 1#1
  let main_v107 : IVec S_ 1 := (fun x v => Host.reduce IntOp.andi x v reducesTo_S2048x2048_S_d0_1 h_S_) main_v106 main_c_41
  let main_v108 : IVec S_ 1 := andi main_v103 main_v107
  let main_v109 : FVec F S2048 .f32 := Host.absf main_arg22
  let main_cst_42 : FVec F S_ .f32 := constant S_ .f32 0x7F800000#32
  let main_v110 : FVec F S2048 .f32 := broadcastInDim S2048 ![] bcast_S_S2048 main_cst_42
  let main_v111 : IVec S2048 1 := cmpf .olt main_v109 main_v110
  let main_c_43 : IVec S_ 1 := constantI S_ 1 1#1
  let main_v112 : IVec S_ 1 := (fun x v => Host.reduce IntOp.andi x v reducesTo_S2048_S_d0 h_S_) main_v111 main_c_43
  let main_v113 : IVec S_ 1 := andi main_v108 main_v112
  let main_v114 : FVec F S2048x2048 .f32 := Host.absf main_arg23
  let main_cst_44 : FVec F S_ .f32 := constant S_ .f32 0x7F800000#32
  let main_v115 : FVec F S2048x2048 .f32 := broadcastInDim S2048x2048 ![] bcast_S_S2048x2048 main_cst_44
  let main_v116 : IVec S2048x2048 1 := cmpf .olt main_v114 main_v115
  let main_c_45 : IVec S_ 1 := constantI S_ 1 1#1
  let main_v117 : IVec S_ 1 := (fun x v => Host.reduce IntOp.andi x v reducesTo_S2048x2048_S_d0_1 h_S_) main_v116 main_c_45
  let main_v118 : IVec S_ 1 := andi main_v113 main_v117
  let main_v119 : FVec F S2048 .f32 := Host.absf main_arg24
  fn_part7 (F := F) main_v118 main_v119

def fn_part5 {F : FTy → Type} [FloatOps F] (main_arg18 : FVec F S2048 .f32) (main_arg19 : FVec F S2048x2048 .f32) (main_arg20 : FVec F S2048 .f32) (main_arg21 : FVec F S2048x2048 .f32) (main_arg22 : FVec F S2048 .f32) (main_arg23 : FVec F S2048x2048 .f32) (main_arg24 : FVec F S2048 .f32) (main_v83 : IVec S_ 1) (main_v84 : FVec F S2048x2048 .f32) (main_cst_32 : FVec F S_ .f32) : IVec S_ 1 :=
  let main_v85 : FVec F S2048x2048 .f32 := broadcastInDim S2048x2048 ![] bcast_S_S2048x2048 main_cst_32
  let main_v86 : IVec S2048x2048 1 := cmpf .olt main_v84 main_v85
  let main_c_33 : IVec S_ 1 := constantI S_ 1 1#1
  let main_v87 : IVec S_ 1 := (fun x v => Host.reduce IntOp.andi x v reducesTo_S2048x2048_S_d0_1 h_S_) main_v86 main_c_33
  let main_v88 : IVec S_ 1 := andi main_v83 main_v87
  let main_v89 : FVec F S2048 .f32 := Host.absf main_arg18
  let main_cst_34 : FVec F S_ .f32 := constant S_ .f32 0x7F800000#32
  let main_v90 : FVec F S2048 .f32 := broadcastInDim S2048 ![] bcast_S_S2048 main_cst_34
  let main_v91 : IVec S2048 1 := cmpf .olt main_v89 main_v90
  let main_c_35 : IVec S_ 1 := constantI S_ 1 1#1
  let main_v92 : IVec S_ 1 := (fun x v => Host.reduce IntOp.andi x v reducesTo_S2048_S_d0 h_S_) main_v91 main_c_35
  let main_v93 : IVec S_ 1 := andi main_v88 main_v92
  let main_v94 : FVec F S2048x2048 .f32 := Host.absf main_arg19
  let main_cst_36 : FVec F S_ .f32 := constant S_ .f32 0x7F800000#32
  let main_v95 : FVec F S2048x2048 .f32 := broadcastInDim S2048x2048 ![] bcast_S_S2048x2048 main_cst_36
  let main_v96 : IVec S2048x2048 1 := cmpf .olt main_v94 main_v95
  let main_c_37 : IVec S_ 1 := constantI S_ 1 1#1
  let main_v97 : IVec S_ 1 := (fun x v => Host.reduce IntOp.andi x v reducesTo_S2048x2048_S_d0_1 h_S_) main_v96 main_c_37
  let main_v98 : IVec S_ 1 := andi main_v93 main_v97
  let main_v99 : FVec F S2048 .f32 := Host.absf main_arg20
  let main_cst_38 : FVec F S_ .f32 := constant S_ .f32 0x7F800000#32
  let main_v100 : FVec F S2048 .f32 := broadcastInDim S2048 ![] bcast_S_S2048 main_cst_38
  let main_v101 : IVec S2048 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x2048 .f32) (main_arg22 : FVec F S2048 .f32) (main_arg23 : FVec F S2048x2048 .f32) (main_arg24 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S2048x2048 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x2048 .f32) (main_arg22 : FVec F S2048 .f32) (main_arg23 : FVec F S2048x2048 .f32) (main_arg24 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x2048 .f32) (main_arg22 : FVec F S2048 .f32) (main_arg23 : FVec F S2048x2048 .f32) (main_arg24 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x2048 .f32) (main_arg22 : FVec F S2048 .f32) (main_arg23 : FVec F S2048x2048 .f32) (main_arg24 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S8192x2048 .f32) (main_arg1 : FVec F S8192x2048 .f32) (main_arg2 : FVec F S8192x2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x2048 .f32) (main_arg22 : FVec F S2048 .f32) (main_arg23 : FVec F S2048x2048 .f32) (main_arg24 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S128x2048 : Shape := ⟨2, ![128, 2048]⟩
abbrev S1x128 : Shape := ⟨2, ![1, 128]⟩
abbrev S512x128 : Shape := ⟨2, ![512, 128]⟩
abbrev S2048x128 : Shape := ⟨2, ![2048, 128]⟩

abbrev nBuf : Space → Nat
  | .hbm => 49
  | .vmem => 51
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S2048x2048, .f32⟩
  | .hbm, ⟨20, _⟩ => ⟨S2048, .f32⟩
  | .hbm, ⟨21, _⟩ => ⟨S2048x2048, .f32⟩
  | .hbm, ⟨22, _⟩ => ⟨S2048, .f32⟩
  | .hbm, ⟨23, _⟩ => ⟨S2048x2048, .f32⟩
  | .hbm, ⟨24, _⟩ => ⟨S2048, .f32⟩
  | .hbm, ⟨25, _⟩ => ⟨S2048x2048, .bf16⟩
  | .hbm, ⟨26, _⟩ => ⟨S2048x2048, .bf16⟩
  | .hbm, ⟨27, _⟩ => ⟨S2048x2048, .bf16⟩
  | .hbm, ⟨28, _⟩ => ⟨S2048x2048, .bf16⟩
  | .hbm, ⟨29, _⟩ => ⟨S2048x2048, .bf16⟩
  | .hbm, ⟨30, _⟩ => ⟨S2048x2048, .bf16⟩
  | .hbm, ⟨31, _⟩ => ⟨S2048x2048, .bf16⟩
  | .hbm, ⟨32, _⟩ => ⟨S2048x2048, .bf16⟩
  | .hbm, ⟨33, _⟩ => ⟨S2048x2048, .bf16⟩
  | .hbm, ⟨34, _⟩ => ⟨S2048x2048, .bf16⟩
  | .hbm, ⟨35, _⟩ => ⟨S2048x2048, .bf16⟩
  | .hbm, ⟨36, _⟩ => ⟨S1x2048, .f32⟩
  | .hbm, ⟨37, _⟩ => ⟨S1x2048, .f32⟩
  | .hbm, ⟨38, _⟩ => ⟨S1x2048, .f32⟩
  | .hbm, ⟨39, _⟩ => ⟨S1x2048, .f32⟩
  | .hbm, ⟨40, _⟩ => ⟨S1x2048, .f32⟩
  | .hbm, ⟨41, _⟩ => ⟨S1x2048, .f32⟩
  | .hbm, ⟨42, _⟩ => ⟨S1x2048, .f32⟩
  | .hbm, ⟨43, _⟩ => ⟨S1x2048, .f32⟩
  | .hbm, ⟨44, _⟩ => ⟨S1x2048, .f32⟩
  | .hbm, ⟨45, _⟩ => ⟨S1x2048, .f32⟩
  | .hbm, ⟨46, _⟩ => ⟨S1x2048, .f32⟩
  | .hbm, ⟨47, _⟩ => ⟨S8192x2048, .f32⟩
  | .hbm, ⟨48, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S128x2048, .bf16⟩
  | .local _ .vmem, ⟨4, _⟩ => ⟨S128x2048, .bf16⟩
  | .local _ .vmem, ⟨5, _⟩ => ⟨S1x128, .f32⟩
  | .local _ .vmem, ⟨6, _⟩ => ⟨S1x128, .f32⟩
  | .local _ .vmem, ⟨7, _⟩ => ⟨S128x2048, .bf16⟩
  | .local _ .vmem, ⟨8, _⟩ => ⟨S128x2048, .bf16⟩
  | .local _ .vmem, ⟨9, _⟩ => ⟨S1x128, .f32⟩
  | .local _ .vmem, ⟨10, _⟩ => ⟨S1x128, .f32⟩
  | .local _ .vmem, ⟨11, _⟩ => ⟨S128x2048, .bf16⟩
  | .local _ .vmem, ⟨12, _⟩ => ⟨S128x2048, .bf16⟩
  | .local _ .vmem, ⟨13, _⟩ => ⟨S1x128, .f32⟩
  | .local _ .vmem, ⟨14, _⟩ => ⟨S1x128, .f32⟩
  | .local _ .vmem, ⟨15, _⟩ => ⟨S128x2048, .bf16⟩
  | .local _ .vmem, ⟨16, _⟩ => ⟨S128x2048, .bf16⟩
  | .local _ .vmem, ⟨17, _⟩ => ⟨S1x128, .f32⟩
  | .local _ .vmem, ⟨18, _⟩ => ⟨S1x128, .f32⟩
  | .local _ .vmem, ⟨19, _⟩ => ⟨S128x2048, .bf16⟩
  | .local _ .vmem, ⟨20, _⟩ => ⟨S128x2048, .bf16⟩
  | .local _ .vmem, ⟨21, _⟩ => ⟨S1x128, .f32⟩
  | .local _ .vmem, ⟨22, _⟩ => ⟨S1x128, .f32⟩
  | .local _ .vmem, ⟨23, _⟩ => ⟨S128x2048, .bf16⟩
  | .local _ .vmem, ⟨24, _⟩ => ⟨S128x2048, .bf16⟩
  | .local _ .vmem, ⟨25, _⟩ => ⟨S1x128, .f32⟩
  | .local _ .vmem, ⟨26, _⟩ => ⟨S1x128, .f32⟩
  | .local _ .vmem, ⟨27, _⟩ => ⟨S128x2048, .bf16⟩
  | .local _ .vmem, ⟨28, _⟩ => ⟨S128x2048, .bf16⟩
  | .local _ .vmem, ⟨29, _⟩ => ⟨S1x128, .f32⟩
  | .local _ .vmem, ⟨30, _⟩ => ⟨S1x128, .f32⟩
  | .local _ .vmem, ⟨31, _⟩ => ⟨S128x2048, .bf16⟩
  | .local _ .vmem, ⟨32, _⟩ => ⟨S128x2048, .bf16⟩
  | .local _ .vmem, ⟨33, _⟩ => ⟨S1x128, .f32⟩
  | .local _ .vmem, ⟨34, _⟩ => ⟨S1x128, .f32⟩
  | .local _ .vmem, ⟨35, _⟩ => ⟨S128x2048, .bf16⟩
  | .local _ .vmem, ⟨36, _⟩ => ⟨S128x2048, .bf16⟩
  | .local _ .vmem, ⟨37, _⟩ => ⟨S1x128, .f32⟩
  | .local _ .vmem, ⟨38, _⟩ => ⟨S1x128, .f32⟩
  | .local _ .vmem, ⟨39, _⟩ => ⟨S128x2048, .bf16⟩
  | .local _ .vmem, ⟨40, _⟩ => ⟨S128x2048, .bf16⟩
  | .local _ .vmem, ⟨41, _⟩ => ⟨S1x128, .f32⟩
  | .local _ .vmem, ⟨42, _⟩ => ⟨S1x128, .f32⟩
  | .local _ .vmem, ⟨43, _⟩ => ⟨S128x2048, .bf16⟩
  | .local _ .vmem, ⟨44, _⟩ => ⟨S128x2048, .bf16⟩
  | .local _ .vmem, ⟨45, _⟩ => ⟨S1x128, .f32⟩
  | .local _ .vmem, ⟨46, _⟩ => ⟨S1x128, .f32⟩
  | .local _ .vmem, ⟨47, _⟩ => ⟨S512x128, .f32⟩
  | .local _ .vmem, ⟨48, _⟩ => ⟨S512x128, .f32⟩
  | .local _ .vmem, ⟨49, _⟩ => ⟨S512x128, .f32⟩
  | .local _ .vmem, ⟨50, _⟩ => ⟨S512x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22_0 : Ref sig .tc := ⟨.hbm, 47, rfl⟩
abbrev main_v22_1 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg21_1 : Ref sig .tc := ⟨.vmem, 40, rfl⟩
abbrev cc0_stg22_0 : Ref sig .tc := ⟨.vmem, 41, rfl⟩
abbrev cc0_stg22_1 : Ref sig .tc := ⟨.vmem, 42, rfl⟩
abbrev cc0_stg23_0 : Ref sig .tc := ⟨.vmem, 43, rfl⟩
abbrev cc0_stg23_1 : Ref sig .tc := ⟨.vmem, 44, rfl⟩
abbrev cc0_stg24_0 : Ref sig .tc := ⟨.vmem, 45, rfl⟩
abbrev cc0_stg24_1 : Ref sig .tc := ⟨.vmem, 46, rfl⟩
abbrev cc0_stg25_0 : Ref sig .tc := ⟨.vmem, 47, rfl⟩
abbrev cc0_stg25_1 : Ref sig .tc := ⟨.vmem, 48, rfl⟩
abbrev cc0_stg26_0 : Ref sig .tc := ⟨.vmem, 49, rfl⟩
abbrev cc0_stg26_1 : Ref sig .tc := ⟨.vmem, 50, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem21_1 : DmaSem sig := 40
abbrev cc0_sem22_0 : DmaSem sig := 41
abbrev cc0_sem22_1 : DmaSem sig := 42
abbrev cc0_sem23_0 : DmaSem sig := 43
abbrev cc0_sem23_1 : DmaSem sig := 44
abbrev cc0_sem24_0 : DmaSem sig := 45
abbrev cc0_sem24_1 : DmaSem sig := 46
abbrev cc0_sem25_0 : DmaSem sig := 47
abbrev cc0_sem25_1 : DmaSem sig := 48
abbrev cc0_sem26_0 : DmaSem sig := 49
abbrev cc0_sem26_1 : DmaSem sig := 50

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c128_i32 : BitVec 32 := 128#32
  let v108 : BitVec 32 := Scalar.muli arg1 c128_i32
  v108
def k0_off1 (i : grid0.Coords) : Fin 2 → Nat :=
  let c0_59 : Index := 0#32
  let arg1 : BitVec 32 := BitVec.ofNat 32 (i 1).val
  let c128_i32 : BitVec 32 := 128#32
  let v108 : BitVec 32 := Scalar.muli arg1 c128_i32
  let v109 : BitVec 32 := v108
  let v110 : Index := Scalar.indexCast v109
  ![0, v110.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S128x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S128x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S1x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![false, true]

abbrev stage0_19 : Fin 2 → Memref sig .tc .vmem S128x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![false, true]

abbrev stage0_20 : Fin 2 → Memref sig .tc .vmem S1x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![false, true]

abbrev stage0_21 : Fin 2 → Memref sig .tc .vmem S128x2048 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![false, true]

abbrev stage0_22 : Fin 2 → Memref sig .tc .vmem S1x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![false, true]

abbrev stage0_23 : Fin 2 → Memref sig .tc .vmem S128x2048 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![false, true]

abbrev stage0_24 : Fin 2 → Memref sig .tc .vmem S1x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![false, true]

abbrev stage0_25 : Fin 2 → Memref sig .tc .vmem S512x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S512x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

class Facts₀ : Prop where
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  transposes_S128x2048_p1_0_S2048x128 : S128x2048.Transposes [1, 0] S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  h_S512x128 : 0 < S512x128.numel
  inb_S512x128_S512x128_0_0 : ∀ a, (![0, 0] : Fin 2 → Nat) a + S512x128.size a ≤ S512x128.size a
  dot_S512x2048_S2048x128_S512x128_1_0_0_1_n_n_wf : DotDims.WF S512x2048 S2048x128 S512x128 [1] [0] [0] [1] [] []
  hrank0 : 0 < grid0.rank
  k0_mult1_dvd : ∀ i : grid0.Coords, 128 ∣ (k0_mult1 i).toNat
  k0_off1_inb : ∀ i : grid0.Coords, ∀ a, (k0_off1 i) a + S512x128.size a ≤ S512x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .f32 = 32 ∨ (Rect.block (s := S8192x2048) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S2048x2048.size a
  hwx0_3 : ∀ i : grid0.Coords, EltTy.bits .bf16 = 32 ∨ (Rect.block (s := S2048x2048) S128x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x2048.size a
  hwx0_4 : ∀ i : grid0.Coords, EltTy.bits .f32 = 32 ∨ (Rect.block (s := S1x2048) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S2048x2048.size a
  hwx0_5 : ∀ i : grid0.Coords, EltTy.bits .bf16 = 32 ∨ (Rect.block (s := S2048x2048) S128x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x2048.size a
  hwx0_6 : ∀ i : grid0.Coords, EltTy.bits .f32 = 32 ∨ (Rect.block (s := S1x2048) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x2048.size a ≤ S2048x2048.size a
  hwx0_7 : ∀ i : grid0.Coords, EltTy.bits .bf16 = 32 ∨ (Rect.block (s := S2048x2048) S128x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x2048.size a
  hwx0_8 : ∀ i : grid0.Coords, EltTy.bits .f32 = 32 ∨ (Rect.block (s := S1x2048) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x2048.size a ≤ S2048x2048.size a
  hwx0_9 : ∀ i : grid0.Coords, EltTy.bits .bf16 = 32 ∨ (Rect.block (s := S2048x2048) S128x2048.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x2048.size a
  hwx0_10 : ∀ i : grid0.Coords, EltTy.bits .f32 = 32 ∨ (Rect.block (s := S1x2048) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x2048.size a ≤ S2048x2048.size a
  hwx0_11 : ∀ i : grid0.Coords, EltTy.bits .bf16 = 32 ∨ (Rect.block (s := S2048x2048) S128x2048.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x2048.size a
  hwx0_12 : ∀ i : grid0.Coords, EltTy.bits .f32 = 32 ∨ (Rect.block (s := S1x2048) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128x2048.size a ≤ S2048x2048.size a
  hwx0_13 : ∀ i : grid0.Coords, EltTy.bits .bf16 = 32 ∨ (Rect.block (s := S2048x2048) S128x2048.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x2048.size a
  hwx0_14 : ∀ i : grid0.Coords, EltTy.bits .f32 = 32 ∨ (Rect.block (s := S1x2048) S1x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S128x2048.size a ≤ S2048x2048.size a
  hwx0_15 : ∀ i : grid0.Coords, EltTy.bits .bf16 = 32 ∨ (Rect.block (s := S2048x2048) S128x2048.size (cc0_transform_15 i) (hinb0_15 i)).WholeWords (EltTy.packing .bf16)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x2048.size a
  hwx0_16 : ∀ i : grid0.Coords, EltTy.bits .f32 = 32 ∨ (Rect.block (s := S1x2048) S1x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S128x2048.size a ≤ S2048x2048.size a
  hwx0_17 : ∀ i : grid0.Coords, EltTy.bits .bf16 = 32 ∨ (Rect.block (s := S2048x2048) S128x2048.size (cc0_transform_17 i) (hinb0_17 i)).WholeWords (EltTy.packing .bf16)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x2048.size a
  hwx0_18 : ∀ i : grid0.Coords, EltTy.bits .f32 = 32 ∨ (Rect.block (s := S1x2048) S1x128.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S128x2048.size a ≤ S2048x2048.size a
  hwx0_19 : ∀ i : grid0.Coords, EltTy.bits .bf16 = 32 ∨ (Rect.block (s := S2048x2048) S128x2048.size (cc0_transform_19 i) (hinb0_19 i)).WholeWords (EltTy.packing .bf16)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1x128.size a ≤ S1x2048.size a
  hwx0_20 : ∀ i : grid0.Coords, EltTy.bits .f32 = 32 ∨ (Rect.block (s := S1x2048) S1x128.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S128x2048.size a ≤ S2048x2048.size a
  hwx0_21 : ∀ i : grid0.Coords, EltTy.bits .bf16 = 32 ∨ (Rect.block (s := S2048x2048) S128x2048.size (cc0_transform_21 i) (hinb0_21 i)).WholeWords (EltTy.packing .bf16)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S1x128.size a ≤ S1x2048.size a
  hwx0_22 : ∀ i : grid0.Coords, EltTy.bits .f32 = 32 ∨ (Rect.block (s := S1x2048) S1x128.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S128x2048.size a ≤ S2048x2048.size a
  hwx0_23 : ∀ i : grid0.Coords, EltTy.bits .bf16 = 32 ∨ (Rect.block (s := S2048x2048) S128x2048.size (cc0_transform_23 i) (hinb0_23 i)).WholeWords (EltTy.packing .bf16)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S1x128.size a ≤ S1x2048.size a
  hwx0_24 : ∀ i : grid0.Coords, EltTy.bits .f32 = 32 ∨ (Rect.block (s := S1x2048) S1x128.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S512x128.size a ≤ S8192x2048.size a
  hwx0_25 : ∀ i : grid0.Coords, EltTy.bits .f32 = 32 ∨ (Rect.block (s := S8192x2048) S512x128.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S512x128.size a ≤ S8192x2048.size a
  hwx0_26 : ∀ i : grid0.Coords, EltTy.bits .f32 = 32 ∨ (Rect.block (s := S8192x2048) S512x128.size (cc0_transform_26 i) (hinb0_26 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S128x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3) S128x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1x128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4) S128x2048.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v15) S1x128.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v5) S128x2048.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v16) S1x128.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v6) S128x2048.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v17) S1x128.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_v7) S128x2048.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_v18) S1x128.size cc0_transform_18 reads0_18 false false 2 stage0_18 sem0_18
    hrank0 hreads0_18 hinb0_18 nbuf0_18 (Memref.isWhole_whole _) hwx0_18 hstage0_18

abbrev win0_19 : Pipeline.Window sig grid0 :=
  Pipeline.Window.ofSpec (Memref.whole main_v8) S128x2048.size cc0_transform_19 reads0_19 false false 2 stage0_19 sem0_19
    hrank0 hreads0_19 hinb0_19 nbuf0_19 (Memref.isWhole_whole _) hwx0_19 hstage0_19

abbrev win0_20 : Pipeline.Window sig grid0 :=
  Pipeline.Window.ofSpec (Memref.whole main_v19) S1x128.size cc0_transform_20 reads0_20 false false 2 stage0_20 sem0_20
    hrank0 hreads0_20 hinb0_20 nbuf0_20 (Memref.isWhole_whole _) hwx0_20 hstage0_20

abbrev win0_21 : Pipeline.Window sig grid0 :=
  Pipeline.Window.ofSpec (Memref.whole main_v9) S128x2048.size cc0_transform_21 reads0_21 false false 2 stage0_21 sem0_21
    hrank0 hreads0_21 hinb0_21 nbuf0_21 (Memref.isWhole_whole _) hwx0_21 hstage0_21

abbrev win0_22 : Pipeline.Window sig grid0 :=
  Pipeline.Window.ofSpec (Memref.whole main_v20) S1x128.size cc0_transform_22 reads0_22 false false 2 stage0_22 sem0_22
    hrank0 hreads0_22 hinb0_22 nbuf0_22 (Memref.isWhole_whole _) hwx0_22 hstage0_22

abbrev win0_23 : Pipeline.Window sig grid0 :=
  Pipeline.Window.ofSpec (Memref.whole main_v10) S128x2048.size cc0_transform_23 reads0_23 false false 2 stage0_23 sem0_23
    hrank0 hreads0_23 hinb0_23 nbuf0_23 (Memref.isWhole_whole _) hwx0_23 hstage0_23

abbrev win0_24 : Pipeline.Window sig grid0 :=
  Pipeline.Window.ofSpec (Memref.whole main_v21) S1x128.size cc0_transform_24 reads0_24 false false 2 stage0_24 sem0_24
    hrank0 hreads0_24 hinb0_24 nbuf0_24 (Memref.isWhole_whole _) hwx0_24 hstage0_24

abbrev win0_25 : Pipeline.Window sig grid0 :=
  Pipeline.Window.ofSpec (Memref.whole main_v22_0) S512x128.size cc0_transform_25 reads0_25 true false 2 stage0_25 sem0_25
    hrank0 hreads0_25 hinb0_25 nbuf0_25 (Memref.isWhole_whole _) hwx0_25 hstage0_25

abbrev win0_26 : Pipeline.Window sig grid0 :=
  Pipeline.Window.ofSpec (Memref.whole main_v22_1) S512x128.size cc0_transform_26 reads0_26 true false 2 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 120
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S2048x2048, .f32⟩
  | .hbm, ⟨20, _⟩ => ⟨S2048, .f32⟩
  | .hbm, ⟨21, _⟩ => ⟨S2048x2048, .f32⟩
  | .hbm, ⟨22, _⟩ => ⟨S2048, .f32⟩
  | .hbm, ⟨23, _⟩ => ⟨S2048x2048, .f32⟩
  | .hbm, ⟨24, _⟩ => ⟨S2048, .f32⟩
  | .hbm, ⟨25, _⟩ => ⟨S2048x2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S2048x2048, .f32⟩
  | .hbm, ⟨32, _⟩ => ⟨S8192x2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S2048x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S2048x2048, .f32⟩
  | .hbm, ⟨44, _⟩ => ⟨S8192x2048, .f32⟩
  | .hbm, ⟨45, _⟩ => ⟨S1x2048, .f32⟩
  | .hbm, ⟨46, _⟩ => ⟨S8192x2048, .f32⟩
  | .hbm, ⟨47, _⟩ => ⟨S8192x2048, .f32⟩
  | .hbm, ⟨48, _⟩ => ⟨S2048x2048, .f32⟩
  | .hbm, ⟨49, _⟩ => ⟨S8192x2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S_, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S8192x2048, .f32⟩
  | .hbm, ⟨62, _⟩ => ⟨S8192x2048, .f32⟩
  | .hbm, ⟨63, _⟩ => ⟨S2048x2048, .f32⟩
  | .hbm, ⟨64, _⟩ => ⟨S8192x2048, .f32⟩
  | .hbm, ⟨65, _⟩ => ⟨S1x2048, .f32⟩
  | .hbm, ⟨66, _⟩ => ⟨S8192x2048, .f32⟩
  | .hbm, ⟨67, _⟩ => ⟨S8192x2048, .f32⟩
  | .hbm, ⟨68, _⟩ => ⟨S2048x2048, .f32⟩
  | .hbm, ⟨69, _⟩ => ⟨S8192x2048, .f32⟩
  | .hbm, ⟨70, _⟩ => ⟨S1x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S_, .f32⟩
  | .hbm, ⟨78, _⟩ => ⟨S8192x2048, .f32⟩
  | .hbm, ⟨79, _⟩ => ⟨S8192x2048, .f32⟩
  | .hbm, ⟨80, _⟩ => ⟨S_, .f32⟩
  | .hbm, ⟨81, _⟩ => ⟨S8192x2048, .f32⟩
  | .hbm, ⟨82, _⟩ => ⟨S8192x2048, .f32⟩
  | .hbm, ⟨83, _⟩ => ⟨S8192x2048, .f32⟩
  | .hbm, ⟨84, _⟩ => ⟨S2048x2048, .f32⟩
  | .hbm, ⟨85, _⟩ => ⟨S8192x2048, .f32⟩
  | .hbm, ⟨86, _⟩ => ⟨S1x2048, .f32⟩
  | .hbm, ⟨87, _⟩ => ⟨S8192x2048, .f32⟩
  | .hbm, ⟨88, _⟩ => ⟨S8192x2048, .f32⟩
  | .hbm, ⟨89, _⟩ => ⟨S2048x2048, .f32⟩
  | .hbm, ⟨90, _⟩ => ⟨S8192x2048, .f32⟩
  | .hbm, ⟨91, _⟩ => ⟨S1x2048, .f32⟩
  | .hbm, ⟨92, _⟩ => ⟨S8192x2048, .f32⟩
  | .hbm, ⟨93, _⟩ => ⟨S8192x2048, .f32⟩
  | .hbm, ⟨94, _⟩ => ⟨S8192x2048, .f32⟩
  | .hbm, ⟨95, _⟩ => ⟨S8192x2048, .f32⟩
  | .hbm, ⟨96, _⟩ => ⟨S8192x2048, .f32⟩
  | .hbm, ⟨97, _⟩ => ⟨S8192x2048, .f32⟩
  | .hbm, ⟨98, _⟩ => ⟨S2048x2048, .f32⟩
  | .hbm, ⟨99, _⟩ => ⟨S8192x2048, .f32⟩
  | .hbm, ⟨100, _⟩ => ⟨S1x2048, .f32⟩
  | .hbm, ⟨101, _⟩ => ⟨S8192x2048, .f32⟩
  | .hbm, ⟨102, _⟩ => ⟨S8192x2048, .f32⟩
  | .hbm, ⟨103, _⟩ => ⟨S2048x2048, .f32⟩
  | .hbm, ⟨104, _⟩ => ⟨S8192x2048, .f32⟩
  | .hbm, ⟨105, _⟩ => ⟨S1x2048, .f32⟩
  | .hbm, ⟨106, _⟩ => ⟨S8192x2048, .f32⟩
  | .hbm, ⟨107, _⟩ => ⟨S8192x2048, .f32⟩
  | .hbm, ⟨108, _⟩ => ⟨S8192x2048, .f32⟩
  | .hbm, ⟨109, _⟩ => ⟨S8192x2048, .f32⟩
  | .hbm, ⟨110, _⟩ => ⟨S8192x2048, .f32⟩
  | .hbm, ⟨111, _⟩ => ⟨S8192x2048, .f32⟩
  | .hbm, ⟨112, _⟩ => ⟨S_, .f32⟩
  | .hbm, ⟨113, _⟩ => ⟨S8192x2048, .f32⟩
  | .hbm, ⟨114, _⟩ => ⟨S8192x2048, .f32⟩
  | .hbm, ⟨115, _⟩ => ⟨S_, .f32⟩
  | .hbm, ⟨116, _⟩ => ⟨S8192x2048, .f32⟩
  | .hbm, ⟨117, _⟩ => ⟨S8192x2048, .f32⟩
  | .hbm, ⟨118, _⟩ => ⟨S8192x2048, .f32⟩
  | .hbm, ⟨119, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst : Ref sig .tc := ⟨.hbm, 57, rfl⟩
abbrev main_v32 : Ref sig .tc := ⟨.hbm, 58, rfl⟩
abbrev main_v33 : Ref sig .tc := ⟨.hbm, 59, rfl⟩
abbrev main_cst_0 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_1 : Ref sig .tc := ⟨.hbm, 77, rfl⟩
abbrev main_v50 : Ref sig .tc := ⟨.hbm, 78, rfl⟩
abbrev main_v51 : Ref sig .tc := ⟨.hbm, 79, rfl⟩
abbrev main_cst_2 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_3 : Ref sig .tc := ⟨.hbm, 112, rfl⟩
abbrev main_v83 : Ref sig .tc := ⟨.hbm, 113, rfl⟩
abbrev main_v84 : Ref sig .tc := ⟨.hbm, 114, rfl⟩
abbrev main_cst_4 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Spec.lean ====
/-
  One step of an LSTM cell with a "working memory" term, on a batch of 8192 rows and 2048 features, written entry by entry
  over the extended reals.

  Every projection is affine:  lin v w b (p, q) = ( ∑ k < 2048, v (p, k) · w (q, k) ) + b q  — the row p of the data
  against the row q of the weight matrix (the product with the transposed weights), plus the bias at q.  With σ the
  logistic function  1 / (1 + e^(−t)) :

      i = σ( lin x Wxi + lin h Whi + tanh (lin c Wci) )          f = σ( lin x Wxf + lin h Whf + tanh (lin c Wcf) )
      o = σ( lin x Wxo + lin h Who + tanh (lin c Wco) )          g = tanh( lin x Wxg + lin h Whg )
      c' = f · c + i · g                                          h' = o · tanh c'

  Both programs compute exactly these expressions, with the sums in this grouping, so no law of the extended reals beyond
  re-indexing a finite sum is needed, and the inputs may be any extended reals.
-/
import Idealize.ShloMosaic.PureOps.Ideal
import Idealize.ShloMosaic.Lib.ValueIdx

noncomputable section

open scoped BigOperators

namespace Cert.Cell

open Idealize.ShloMosaic Idealize.ShloMosaic.ValueIdx

/-- The batch arrays x, h, c and the two results: 8192 rows of 2048 features. -/
abbrev Rows : Shape := ⟨2, ![8192, 2048]⟩
/-- A weight matrix: 2048 output features by 2048 input features. -/
abbrev Wts : Shape := ⟨2, ![2048, 2048]⟩
/-- A bias: one entry per output feature. -/
abbrev Bias : Shape := ⟨1, ![2048]⟩

/-- The cell's 25 arguments: the data x, the previous hidden state h and cell state c, and eleven (weight, bias) pairs,
    named by source (x, h or c) and destination gate (i, f, o, or the candidate g). -/
structure Args where
  x : Rows.Idx → EReal
  h : Rows.Idx → EReal
  c : Rows.Idx → EReal
  wxi : Wts.Idx → EReal
  bxi : Bias.Idx → EReal
  whi : Wts.Idx → EReal
  bhi : Bias.Idx → EReal
  wci : Wts.Idx → EReal
  bci : Bias.Idx → EReal
  wxf : Wts.Idx → EReal
  bxf : Bias.Idx → EReal
  whf : Wts.Idx → EReal
  bhf : Bias.Idx → EReal
  wcf : Wts.Idx → EReal
  bcf : Bias.Idx → EReal
  wxo : Wts.Idx → EReal
  bxo : Bias.Idx → EReal
  who : Wts.Idx → EReal
  bho : Bias.Idx → EReal
  wco : Wts.Idx → EReal
  bco : Bias.Idx → EReal
  wxg : Wts.Idx → EReal
  bxg : Bias.Idx → EReal
  whg : Wts.Idx → EReal
  bhg : Bias.Idx → EReal

/-- An affine projection at entry (p, q): row p of the data against row q of the weights, plus the bias at q. -/
def lin (v : Rows.Idx → EReal) (w : Wts.Idx → EReal) (b : Bias.Idx → EReal) (p : Fin 8192) (q : Fin 2048) : EReal :=
  (∑ k : Fin 2048, v (ix2 p k) * w (ix2 q k)) + b (ix1 q)

/-- A gate: the logistic function of the x- and h-projections plus the squashed c-projection. -/
def gate (A : Args) (wx : Wts.Idx → EReal) (bx : Bias.Idx → EReal) (wh : Wts.Idx → EReal) (bh : Bias.Idx → EReal)
    (wc : Wts.Idx → EReal) (bc : Bias.Idx → EReal) (p : Fin 8192) (q : Fin 2048) : EReal :=
  Ideal.logistic (lin A.x wx bx p q + lin A.h wh bh p q + Ideal.tanh (lin A.c wc bc p q))

/-- The input gate i. -/
def gateI (A : Args) : Fin 8192 → Fin 2048 → EReal := gate A A.wxi A.bxi A.whi A.bhi A.wci A.bci
/-- The forget gate f. -/
def gateF (A : Args) : Fin 8192 → Fin 2048 → EReal := gate A A.wxf A.bxf A.whf A.bhf A.wcf A.bcf
/-- The output gate o. -/
def gateO (A : Args) : Fin 8192 → Fin 2048 → EReal := gate A A.wxo A.bxo A.who A.bho A.wco A.bco
/-- The candidate g. -/
def cand (A : Args) (p : Fin 8192) (q : Fin 2048) : EReal :=
  Ideal.tanh (lin A.x A.wxg A.bxg p q + lin A.h A.whg A.bhg p q)

/-- The new cell state c' = f · c + i · g. -/
def cNew (A : Args) (p : Fin 8192) (q : Fin 2048) : EReal :=
  gateF A p q * A.c (ix2 p q) + gateI A p q * cand A p q
/-- The new hidden state h' = o · tanh c'. -/
def hNew (A : Args) (p : Fin 8192) (q : Fin 2048) : EReal :=
  gateO A p q * Ideal.tanh (cNew A p q)

/-- The new cell state as an array. -/
def cArr (A : Args) : Rows.Idx → EReal := fun i => cNew A (i 0) (i 1)
/-- The new hidden state as an array. -/
def hArr (A : Args) : Rows.Idx → EReal := fun i => hNew A (i 0) (i 1)

theorem cArr_ix2 (A : Args) (p : Fin 8192) (q : Fin 2048) : cArr A (ix2 p q) = cNew A p q := rfl
theorem hArr_ix2 (A : Args) (p : Fin 8192) (q : Fin 2048) : hArr A (ix2 p q) = hNew A p q := rfl

end Cert.Cell

end
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.Proj.lean ====
/-
  One affine projection  ( ∑ k, v (p, k) · w (q, k) ) + b q  read at an entry, as each of the two programs spells it.

  The vector unit multiplies a block of rows  v  ([n, K]) by the TRANSPOSE of a block of weight rows  w  ([c, K]) into a
  zero accumulator and adds the bias, held as a one-row matrix  [1, c]  and repeated down the rows.  The host multiplies
  the whole array by the transposed weight matrix with a `dot_general` and adds the bias vector  [c]  made a one-row
  matrix and repeated down the rows.  At entry (p, q) both are the same sum over the shared axis plus the bias at q:
  transposing the weights turns the product's column q into the weights' row q.

  Also here: the host's expansion of the logistic function, 1 / (1 + e^(−t)), is the logistic function.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import proofs.«158424_j80350248173768_1_alg».proof.Proof.LibDotRowsCols

noncomputable section

open scoped BigOperators

namespace Cert.Cell.Proj

open Idealize.ShloMosaic Idealize.ShloMosaic.ValueIdx Cert.Lib.DotRowsCols

variable {n K c : ℕ}

/-- The product with the transposed weights into zero, at entry (p, q): row p of the data against row q of the weights. -/
theorem matmul_transposed_apply {φ₁ φ₂ : FTy} {d : DotDims ⟨2, ![n, K]⟩ ⟨2, ![K, c]⟩ ⟨2, ![n, c]⟩} (hd : RowsCols d)
    (v : FVec Ideal ⟨2, ![n, K]⟩ φ₁) (w : FVec Ideal ⟨2, ![c, K]⟩ φ₂)
    (h2 : (⟨2, ![c, K]⟩ : Shape).Transposes [1, 0] ⟨2, ![K, c]⟩) (p : Fin n) (q : Fin c) :
    matmul (F := Ideal) d none v (transpose ⟨2, ![K, c]⟩ [1, 0] w h2) (constant ⟨2, ![n, c]⟩ .f32 0x00000000#32) (ix2 p q)
      = ∑ k : Fin K, v (ix2 p k) * w (ix2 q k) := by
  rw [hd.matmul_zero_apply]
  show ∑ k : Fin K, v (ix2 p k) * transpose ⟨2, ![K, c]⟩ [1, 0] w h2 (ix2 k q) = _
  refine Finset.sum_congr rfl fun k _ => ?_
  rw [transpose_ix2_apply]

/-- The vector unit's projection at entry (p, q). -/
theorem kernel_apply {φ₁ φ₂ : FTy} {d : DotDims ⟨2, ![n, K]⟩ ⟨2, ![K, c]⟩ ⟨2, ![n, c]⟩} (hd : RowsCols d)
    (v : FVec Ideal ⟨2, ![n, K]⟩ φ₁) (w : FVec Ideal ⟨2, ![c, K]⟩ φ₂) (b : FVec Ideal ⟨2, ![1, c]⟩ .f32)
    (h1 : (⟨2, ![c, K]⟩ : Shape).ShapeCasts ⟨2, ![c, K]⟩) (h2 : (⟨2, ![c, K]⟩ : Shape).Transposes [1, 0] ⟨2, ![K, c]⟩)
    (h3 : (⟨2, ![1, c]⟩ : Shape).ShapeCasts ⟨2, ![1, c]⟩) (h4 : (⟨2, ![1, c]⟩ : Shape).Broadcasts ⟨2, ![n, c]⟩)
    (p : Fin n) (q : Fin c) :
    addf (matmul (F := Ideal) d none v (transpose ⟨2, ![K, c]⟩ [1, 0] (shapeCast ⟨2, ![c, K]⟩ w h1) h2)
          (constant ⟨2, ![n, c]⟩ .f32 0x00000000#32))
        (broadcastTo ⟨2, ![n, c]⟩ (shapeCast ⟨2, ![1, c]⟩ b h3) h4) (ix2 p q)
      = (∑ k : Fin K, v (ix2 p k) * w (ix2 q k)) + b (ix2 (0 : Fin 1) q) := by
  rw [addf_apply, shapeCast_self, shapeCast_self, matmul_transposed_apply hd, broadcastTo_1b_ab_apply]

/-- A vector `[c]` made the one-row matrix `[1, c]` reads, at (u, q), its entry at q. -/
theorem vector_as_row_apply {α : Type} (b : (⟨1, ![c]⟩ : Shape).Idx → α)
    (h : (⟨1, ![c]⟩ : Shape).BroadcastsInDim ⟨2, ![1, c]⟩ ![1]) (u : Fin 1) (q : Fin c) :
    broadcastInDim ⟨2, ![1, c]⟩ ![1] h b (ix2 u q) = b (ix1 q) := by
  refine broadcastInDim_apply ![1] h b (ix2 u q) (ix1 q) fun a => ?_
  match a with
  | ⟨0, _⟩ =>
    show q.val = if c = 1 then 0 else q.val
    split
    · have := q.isLt; omega
    · rfl

/-- The host's product with the transposed weights, at entry (p, q). -/
theorem dotGeneral_transposed_apply {φ₁ φ₂ : FTy} {d : DotDims ⟨2, ![n, K]⟩ ⟨2, ![K, c]⟩ ⟨2, ![n, c]⟩} (hd : RowsCols d)
    (v : FVec Ideal ⟨2, ![n, K]⟩ φ₁) (w : FVec Ideal ⟨2, ![c, K]⟩ φ₂)
    (h2 : (⟨2, ![c, K]⟩ : Shape).Transposes [1, 0] ⟨2, ![K, c]⟩) (p : Fin n) (q : Fin c) :
    Host.dotGeneral (F := Ideal) d none v (transpose ⟨2, ![K, c]⟩ [1, 0] w h2) (ix2 p q)
      = ∑ k : Fin K, v (ix2 p k) * w (ix2 q k) := by
  rw [hd.dotGeneral_apply]
  show ∑ k : Fin K, v (ix2 p k) * transpose ⟨2, ![K, c]⟩ [1, 0] w h2 (ix2 k q) = _
  refine Finset.sum_congr rfl fun k _ => ?_
  rw [transpose_ix2_apply]

/-- The host's bias, a vector made a one-row matrix and repeated down the rows, at entry (p, q). -/
theorem host_bias_apply {α : Type} (b : (⟨1, ![c]⟩ : Shape).Idx → α)
    (h3 : (⟨1, ![c]⟩ : Shape).BroadcastsInDim ⟨2, ![1, c]⟩ ![1])
    (h4 : (⟨2, ![1, c]⟩ : Shape).BroadcastsInDim ⟨2, ![n, c]⟩ ![0, 1]) (p : Fin n) (q : Fin c) :
    broadcastInDim ⟨2, ![n, c]⟩ ![0, 1] h4 (broadcastInDim ⟨2, ![1, c]⟩ ![1] h3 b) (ix2 p q) = b (ix1 q) := by
  rw [broadcastInDim_oneRow_apply, vector_as_row_apply]

/-- The host's expansion of the logistic function is the logistic function. -/
theorem logistic_expanded (t : EReal) : Ideal.div 1 (1 + Ideal.exp (-t)) = Ideal.logistic t := rfl

end Cert.Cell.Proj

end
-- ==== Proof.Body.lean ====
/-
  What one grid point's body computes, as arithmetic on the blocks it loads.

  At a point the body holds a block of 512 rows of x, h and c (all 2048 features), for each of the eleven projections a
  block of 128 rows of the weight matrix and the matching 128 entries of the bias (a one-row matrix), and a 512 × 128
  piece  cs  of the c block (the columns the point's output block covers).  Writing  proj v w b  for the product of the
  rows with the transposed weight rows plus the bias repeated down the rows, it computes, on 512 × 128 blocks,

      i = σ( proj x Wxi + proj h Whi + tanh (proj c Wci) ),   f, o likewise,   g = tanh( proj x Wxg + proj h Whg ),
      c' = f · cs + i · g,    h' = o · tanh c'.

  First the body's stored values ARE these expressions of the loaded blocks (by unfolding).  Then, at the ideal values,
  an entry (p, q) of c' and h' is the cell's entry (P, Q) as soon as the loaded blocks hold, on row p and on weight row q,
  what the argument arrays hold on row P and on weight row Q (narrowing the operands to a shorter float format is the
  identity on extended reals).
-/
import proofs.«158424_j80350248173768_1_alg».proof.Proof.Gen.KernelIdeal.Skeleton
import proofs.«158424_j80350248173768_1_alg».proof.Proof.Spec
import proofs.«158424_j80350248173768_1_alg».proof.Proof.Proj

noncomputable section

open scoped BigOperators

namespace Cert.KernelIdeal.Body

open Cert.KernelIdeal Cert.KernelIdeal.Gen Idealize.ShloMosaic Idealize.ShloMosaic.ValueIdx

variable {F : FTy → Type} [FloatOps F]

/-- The 25 input blocks a grid point loads, in the order of the kernel's operands. -/
structure Blocks (F : FTy → Type) where
  x : Vec F S512x2048 .f32
  h : Vec F S512x2048 .f32
  c : Vec F S512x2048 .f32
  wxi : Vec F S128x2048 .bf16
  bxi : Vec F S1x128 .f32
  whi : Vec F S128x2048 .bf16
  bhi : Vec F S1x128 .f32
  wci : Vec F S128x2048 .bf16
  bci : Vec F S1x128 .f32
  wxf : Vec F S128x2048 .bf16
  bxf : Vec F S1x128 .f32
  whf : Vec F S128x2048 .bf16
  bhf : Vec F S1x128 .f32
  wcf : Vec F S128x2048 .bf16
  bcf : Vec F S1x128 .f32
  wxo : Vec F S128x2048 .bf16
  bxo : Vec F S1x128 .f32
  who : Vec F S128x2048 .bf16
  bho : Vec F S1x128 .f32
  wco : Vec F S128x2048 .bf16
  bco : Vec F S1x128 .f32
  wxg : Vec F S128x2048 .bf16
  bxg : Vec F S1x128 .f32
  whg : Vec F S128x2048 .bf16
  bhg : Vec F S1x128 .f32

/-- A block of rows narrowed to the product's operand format. -/
def narrow (v : Vec F S512x2048 .f32) : FVec F S512x2048 .bf16 := truncf .bf16 v bitsLt_bf16_f32

/-- The vector unit's affine projection of a block of rows: the rows times the transposed weight rows into zero, plus the
    one-row bias repeated down the rows. -/
def proj (v : FVec F S512x2048 .bf16) (w : Vec F S128x2048 .bf16) (b : Vec F S1x128 .f32) : FVec F S512x128 .f32 :=
  addf (matmul dot_S512x2048_S2048x128_S512x128_1_0_0_1_n_n none v
      (transpose S2048x128 [1, 0] (shapeCast S128x2048 w shapeCasts_S128x2048_S128x2048) transposes_S128x2048_p1_0_S2048x128)
      (constant S512x128 .f32 0x00000000#32))
    (broadcastTo S512x128 (shapeCast S1x128 b shapeCasts_S1x128_S1x128) broadcasts_S1x128_S512x128)

/-- A gate on a block. -/
def gate (x h c : Vec F S512x2048 .f32) (wx : Vec F S128x2048 .bf16) (bx : Vec F S1x128 .f32) (wh : Vec F S128x2048 .bf16)
    (bh : Vec F S1x128 .f32) (wc : Vec F S128x2048 .bf16) (bc : Vec F S1x128 .f32) : FVec F S512x128 .f32 :=
  logistic (addf (addf (proj (narrow x) wx bx) (proj (narrow h) wh bh)) (tanh (proj (narrow c) wc bc)))

/-- The candidate on a block. -/
def cand (x h : Vec F S512x2048 .f32) (wx : Vec F S128x2048 .bf16) (bx : Vec F S1x128 .f32) (wh : Vec F S128x2048 .bf16)
    (bh : Vec F S1x128 .f32) : FVec F S512x128 .f32 :=
  tanh (addf (proj (narrow x) wx bx) (proj (narrow h) wh bh))

/-- The new cell state on a block, from the loaded blocks and the piece `cs` of the c block. -/
def cellBlock (B : Blocks F) (cs : Vec F S512x128 .f32) : FVec F S512x128 .f32 :=
  addf (mulf (gate B.x B.h B.c B.wxf B.bxf B.whf B.bhf B.wcf B.bcf) cs)
    (mulf (gate B.x B.h B.c B.wxi B.bxi B.whi B.bhi B.wci B.bci) (cand B.x B.h B.wxg B.bxg B.whg B.bhg))

/-- The new hidden state on a block. -/
def hiddenBlock (B : Blocks F) (cs : Vec F S512x128 .f32) : FVec F S512x128 .f32 :=
  mulf (gate B.x B.h B.c B.wxo B.bxo B.who B.bho B.wco B.bco) (tanh (cellBlock B cs))

/-- The value the body stores to the second output is the new cell state of its loaded blocks. -/
theorem cell_payload (B : Blocks F) (cs : Vec F S512x128 .f32) :
    k0_pay10 (k0_pay2 B.x) (k0_pay3 B.h) (k0_pay5 B.x B.h B.c B.wxi B.bxi B.whi B.bhi B.wci B.bci)
      (k0_pay6 (k0_pay2 B.x) (k0_pay3 B.h) (k0_pay4 B.c) B.wxf B.bxf B.whf B.bhf B.wcf B.bcf) B.wxg B.bxg B.whg B.bhg cs
      = cellBlock B cs := rfl

/-- The value the body stores to the first output is the new hidden state of its loaded blocks. -/
theorem hidden_payload (B : Blocks F) (cs : Vec F S512x128 .f32) :
    k0_pay1 (k0_pay9 (k0_pay4 B.c) (k0_pay7 (k0_pay2 B.x) B.wxo B.bxo) (k0_pay8 (k0_pay3 B.h) B.who) B.bho B.wco B.bco)
      (cellBlock B cs) = hiddenBlock B cs := rfl

/-! ## At the ideal values, entry by entry -/

/-- The kernel's product: contract the left operand's axis 1 with the right operand's axis 0. -/
theorem dot_rowsCols : Cert.Lib.DotRowsCols.RowsCols dot_S512x2048_S2048x128_S512x128_1_0_0_1_n_n :=
  ⟨rfl, rfl, rfl, rfl, rfl, rfl⟩

/-- The projection of a block at entry (p, q): row p of the block against weight row q, plus the bias at q. -/
theorem proj_apply (v : Vec Ideal S512x2048 .f32) (w : Vec Ideal S128x2048 .bf16) (b : Vec Ideal S1x128 .f32)
    (p : Fin 512) (q : Fin 128) :
    proj (F := Ideal) (narrow v) w b (ix2 p q) = (∑ k : Fin 2048, v (ix2 p k) * w (ix2 q k)) + b (ix2 (0 : Fin 1) q) := by
  unfold proj
  exact Cert.Cell.Proj.kernel_apply dot_rowsCols (narrow v) w b _ _ _ _ p q

/-- The block's projection is the cell's, when row p of the block is row P of the data, weight row q of the block is weight
    row Q, and the block's bias at q is the bias at Q. -/
theorem proj_eq_lin (v : Vec Ideal S512x2048 .f32) (w : Vec Ideal S128x2048 .bf16) (b : Vec Ideal S1x128 .f32)
    (V : Cert.Cell.Rows.Idx → EReal) (W : Cert.Cell.Wts.Idx → EReal) (Bv : Cert.Cell.Bias.Idx → EReal)
    (p : Fin 512) (q : Fin 128) (P : Fin 8192) (Q : Fin 2048)
    (hv : ∀ k : Fin 2048, v (ix2 p k) = V (ix2 P k)) (hw : ∀ k : Fin 2048, w (ix2 q k) = W (ix2 Q k))
    (hb : b (ix2 (0 : Fin 1) q) = Bv (ix1 Q)) :
    proj (F := Ideal) (narrow v) w b (ix2 p q) = Cert.Cell.lin V W Bv P Q := by
  rw [proj_apply, hb]
  unfold Cert.Cell.lin
  exact congrArg (· + _) (Finset.sum_congr rfl fun k _ => by rw [hv k, hw k])

/-- A gate at an entry. -/
theorem gate_apply (x h c : Vec Ideal S512x2048 .f32) (wx : Vec Ideal S128x2048 .bf16) (bx : Vec Ideal S1x128 .f32)
    (wh : Vec Ideal S128x2048 .bf16) (bh : Vec Ideal S1x128 .f32) (wc : Vec Ideal S128x2048 .bf16) (bc : Vec Ideal S1x128 .f32)
    (j : S512x128.Idx) :
    gate (F := Ideal) x h c wx bx wh bh wc bc j
      = Ideal.logistic (proj (narrow x) wx bx j + proj (narrow h) wh bh j + Ideal.tanh (proj (narrow c) wc bc j)) := rfl

/-- The candidate at an entry. -/
theorem cand_apply (x h : Vec Ideal S512x2048 .f32) (wx : Vec Ideal S128x2048 .bf16) (bx : Vec Ideal S1x128 .f32)
    (wh : Vec Ideal S128x2048 .bf16) (bh : Vec Ideal S1x128 .f32) (j : S512x128.Idx) :
    cand (F := Ideal) x h wx bx wh bh j = Ideal.tanh (proj (narrow x) wx bx j + proj (narrow h) wh bh j) := rfl

/-- What it means for the blocks a point loads to be the point's part of the argument arrays, seen from entry (p, q) of the
    output block and entry (P, Q) of the array: block row p is array row P; weight row q of each block is weight row Q; each
    bias block holds at q the bias at Q; and the piece of c holds at (p, q) the array's entry (P, Q). -/
structure Agrees (B : Blocks Ideal) (cs : Vec Ideal S512x128 .f32) (A : Cert.Cell.Args) (p : Fin 512) (q : Fin 128)
    (P : Fin 8192) (Q : Fin 2048) : Prop where
  x : ∀ k : Fin 2048, B.x (ix2 p k) = A.x (ix2 P k)
  h : ∀ k : Fin 2048, B.h (ix2 p k) = A.h (ix2 P k)
  c : ∀ k : Fin 2048, B.c (ix2 p k) = A.c (ix2 P k)
  wxi : ∀ k : Fin 2048, B.wxi (ix2 q k) = A.wxi (ix2 Q k)
  bxi : B.bxi (ix2 (0 : Fin 1) q) = A.bxi (ix1 Q)
  whi : ∀ k : Fin 2048, B.whi (ix2 q k) = A.whi (ix2 Q k)
  bhi : B.bhi (ix2 (0 : Fin 1) q) = A.bhi (ix1 Q)
  wci : ∀ k : Fin 2048, B.wci (ix2 q k) = A.wci (ix2 Q k)
  bci : B.bci (ix2 (0 : Fin 1) q) = A.bci (ix1 Q)
  wxf : ∀ k : Fin 2048, B.wxf (ix2 q k) = A.wxf (ix2 Q k)
  bxf : B.bxf (ix2 (0 : Fin 1) q) = A.bxf (ix1 Q)
  whf : ∀ k : Fin 2048, B.whf (ix2 q k) = A.whf (ix2 Q k)
  bhf : B.bhf (ix2 (0 : Fin 1) q) = A.bhf (ix1 Q)
  wcf : ∀ k : Fin 2048, B.wcf (ix2 q k) = A.wcf (ix2 Q k)
  bcf : B.bcf (ix2 (0 : Fin 1) q) = A.bcf (ix1 Q)
  wxo : ∀ k : Fin 2048, B.wxo (ix2 q k) = A.wxo (ix2 Q k)
  bxo : B.bxo (ix2 (0 : Fin 1) q) = A.bxo (ix1 Q)
  who : ∀ k : Fin 2048, B.who (ix2 q k) = A.who (ix2 Q k)
  bho : B.bho (ix2 (0 : Fin 1) q) = A.bho (ix1 Q)
  wco : ∀ k : Fin 2048, B.wco (ix2 q k) = A.wco (ix2 Q k)
  bco : B.bco (ix2 (0 : Fin 1) q) = A.bco (ix1 Q)
  wxg : ∀ k : Fin 2048, B.wxg (ix2 q k) = A.wxg (ix2 Q k)
  bxg : B.bxg (ix2 (0 : Fin 1) q) = A.bxg (ix1 Q)
  whg : ∀ k : Fin 2048, B.whg (ix2 q k) = A.whg (ix2 Q k)
  bhg : B.bhg (ix2 (0 : Fin 1) q) = A.bhg (ix1 Q)
  cs : cs (ix2 p q) = A.c (ix2 P Q)

variable {B : Blocks Ideal} {cs : Vec Ideal S512x128 .f32} {A : Cert.Cell.Args} {p : Fin 512} {q : Fin 128}
  {P : Fin 8192} {Q : Fin 2048}

/-- The block's new cell state at (p, q) is the cell's at (P, Q). -/
theorem cellBlock_apply (H : Agrees B cs A p q P Q) : cellBlock B cs (ix2 p q) = Cert.Cell.cNew A P Q := by
  unfold cellBlock Cert.Cell.cNew Cert.Cell.gateF Cert.Cell.gateI Cert.Cell.cand Cert.Cell.gate
  rw [addf_apply, mulf_apply, mulf_apply, gate_apply, gate_apply, cand_apply, H.cs,
    proj_eq_lin B.x B.wxf B.bxf A.x A.wxf A.bxf p q P Q H.x H.wxf H.bxf,
    proj_eq_lin B.h B.whf B.bhf A.h A.whf A.bhf p q P Q H.h H.whf H.bhf,
    proj_eq_lin B.c B.wcf B.bcf A.c A.wcf A.bcf p q P Q H.c H.wcf H.bcf,
    proj_eq_lin B.x B.wxi B.bxi A.x A.wxi A.bxi p q P Q H.x H.wxi H.bxi,
    proj_eq_lin B.h B.whi B.bhi A.h A.whi A.bhi p q P Q H.h H.whi H.bhi,
    proj_eq_lin B.c B.wci B.bci A.c A.wci A.bci p q P Q H.c H.wci H.bci,
    proj_eq_lin B.x B.wxg B.bxg A.x A.wxg A.bxg p q P Q H.x H.wxg H.bxg,
    proj_eq_lin B.h B.whg B.bhg A.h A.whg A.bhg p q P Q H.h H.whg H.bhg]

/-- The block's new hidden state at (p, q) is the cell's at (P, Q). -/
theorem hiddenBlock_apply (H : Agrees B cs A p q P Q) : hiddenBlock B cs (ix2 p q) = Cert.Cell.hNew A P Q := by
  unfold hiddenBlock Cert.Cell.hNew Cert.Cell.gateO Cert.Cell.gate
  rw [mulf_apply, gate_apply]
  show _ * Ideal.tanh (cellBlock B cs (ix2 p q)) = _
  rw [cellBlock_apply H,
    proj_eq_lin B.x B.wxo B.bxo A.x A.wxo A.bxo p q P Q H.x H.wxo H.bxo,
    proj_eq_lin B.h B.who B.bho A.h A.who A.bho p q P Q H.h H.who H.bho,
    proj_eq_lin B.c B.wco B.bco A.c A.wco A.bco p q P Q H.c H.wco H.bco]

end Cert.KernelIdeal.Body

end
-- ==== Proof.Piece.lean ====
/-
  What the body leaves in its two output blocks at a grid point, as the block arithmetic of what it loaded.

  The body stores each output block once, whole; its loads read whole staging buffers, except one: the 512 × 128 piece of
  the c block at the columns the point's output block covers (column offset 128 · j at grid column j).  So after the body the
  second output's staging buffer holds the new cell state of the loaded blocks and that piece, and the first the new hidden
  state.
-/
import proofs.«158424_j80350248173768_1_alg».proof.Proof.KernelIdealValue
import proofs.«158424_j80350248173768_1_alg».proof.Proof.Body
import Idealize.ShloMosaic.Lib.Pipeline.Value
import Idealize.ShloMosaic.Lib.Tactic

set_option maxRecDepth 16384

noncomputable section

namespace Cert.KernelIdeal.Piece

open Cert.KernelIdeal Cert.KernelIdeal.Gen Idealize.ShloMosaic Idealize.ShloMosaic.TcCoe Idealize.SL.Sem Idealize.ShloMosaic.Tactic
open Cert.KernelIdeal.Body

variable {F : FTy → Type} [FloatOps F]

theorem hz : (![0, 0] : Fin 2 → Nat) = fun _ => 0 := funext fun a => by fin_cases a <;> rfl

/-- The piece of the c block the body reads for the elementwise update: 512 rows, the 128 columns from the point's column
    offset on. -/
def cpiece (i : grid0.Coords) (x2 : Vec F S512x2048 .f32) : Vec F S512x128 .f32 :=
  View.ld x2 (Rect.unit (s := S512x2048) (k0_off1 i) S512x128.size (k0_off1_inb i))

/-- The second output's staging buffer after the body: the new cell state of the loaded blocks. -/
theorem out26_eq (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S128x2048 .bf16) (harg5 : arg5.IsWhole) (arg6 : Memref sig .tc .vmem S1x128 .f32) (harg6 : arg6.IsWhole) (arg7 : Memref sig .tc .vmem S128x2048 .bf16) (harg7 : arg7.IsWhole) (arg8 : Memref sig .tc .vmem S1x128 .f32) (harg8 : arg8.IsWhole) (arg9 : Memref sig .tc .vmem S128x2048 .bf16) (harg9 : arg9.IsWhole) (arg10 : Memref sig .tc .vmem S1x128 .f32) (harg10 : arg10.IsWhole) (arg11 : Memref sig .tc .vmem S128x2048 .bf16) (harg11 : arg11.IsWhole) (arg12 : Memref sig .tc .vmem S1x128 .f32) (harg12 : arg12.IsWhole) (arg13 : Memref sig .tc .vmem S128x2048 .bf16) (harg13 : arg13.IsWhole) (arg14 : Memref sig .tc .vmem S1x128 .f32) (harg14 : arg14.IsWhole) (arg15 : Memref sig .tc .vmem S128x2048 .bf16) (harg15 : arg15.IsWhole) (arg16 : Memref sig .tc .vmem S1x128 .f32) (harg16 : arg16.IsWhole) (arg17 : Memref sig .tc .vmem S128x2048 .bf16) (harg17 : arg17.IsWhole) (arg18 : Memref sig .tc .vmem S1x128 .f32) (harg18 : arg18.IsWhole) (arg19 : Memref sig .tc .vmem S128x2048 .bf16) (harg19 : arg19.IsWhole) (arg20 : Memref sig .tc .vmem S1x128 .f32) (harg20 : arg20.IsWhole) (arg21 : Memref sig .tc .vmem S128x2048 .bf16) (harg21 : arg21.IsWhole) (arg22 : Memref sig .tc .vmem S1x128 .f32) (harg22 : arg22.IsWhole) (arg23 : Memref sig .tc .vmem S128x2048 .bf16) (harg23 : arg23.IsWhole) (arg24 : Memref sig .tc .vmem S1x128 .f32) (harg24 : arg24.IsWhole) (arg25 : Memref sig .tc .vmem S128x2048 .bf16) (harg25 : arg25.IsWhole) (arg26 : Memref sig .tc .vmem S1x128 .f32) (harg26 : arg26.IsWhole) (arg27 : Memref sig .tc .vmem S512x128 .f32) (harg27 : arg27.IsWhole) (arg28 : Memref sig .tc .vmem S512x128 .f32) (harg28 : arg28.IsWhole)
    (x0 : Vec F S512x2048 .f32) (x1 : Vec F S512x2048 .f32) (x2 : Vec F S512x2048 .f32) (x3 : Vec F S128x2048 .bf16) (x4 : Vec F S1x128 .f32) (x5 : Vec F S128x2048 .bf16) (x6 : Vec F S1x128 .f32) (x7 : Vec F S128x2048 .bf16) (x8 : Vec F S1x128 .f32) (x9 : Vec F S128x2048 .bf16) (x10 : Vec F S1x128 .f32) (x11 : Vec F S128x2048 .bf16) (x12 : Vec F S1x128 .f32) (x13 : Vec F S128x2048 .bf16) (x14 : Vec F S1x128 .f32) (x15 : Vec F S128x2048 .bf16) (x16 : Vec F S1x128 .f32) (x17 : Vec F S128x2048 .bf16) (x18 : Vec F S1x128 .f32) (x19 : Vec F S128x2048 .bf16) (x20 : Vec F S1x128 .f32) (x21 : Vec F S128x2048 .bf16) (x22 : Vec F S1x128 .f32) (x23 : Vec F S128x2048 .bf16) (x24 : Vec F S1x128 .f32) :
    out0_A_26 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24 = cellBlock ⟨x0, x1, x2, x3, x4, x5, x6, x7, x8, x9, x10, x11, x12, x13, x14, x15, x16, x17, x18, x19, x20, x21, x22, x23, x24⟩ (cpiece i x2) := by
  unfold out0_A_26
  rw [View.read_writes_eq_canon _ _ _ (cover0_A_26 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, View.ld_unit_zero (S := S512x2048) hz, View.ld_unit_zero (S := S128x2048) hz, View.ld_unit_zero (S := S1x128) hz, View.ld_unit_zero (S := S512x128) hz]
  rfl

/-- The first output's staging buffer after the body: the new hidden state of the loaded blocks. -/
theorem out25_eq (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S128x2048 .bf16) (harg5 : arg5.IsWhole) (arg6 : Memref sig .tc .vmem S1x128 .f32) (harg6 : arg6.IsWhole) (arg7 : Memref sig .tc .vmem S128x2048 .bf16) (harg7 : arg7.IsWhole) (arg8 : Memref sig .tc .vmem S1x128 .f32) (harg8 : arg8.IsWhole) (arg9 : Memref sig .tc .vmem S128x2048 .bf16) (harg9 : arg9.IsWhole) (arg10 : Memref sig .tc .vmem S1x128 .f32) (harg10 : arg10.IsWhole) (arg11 : Memref sig .tc .vmem S128x2048 .bf16) (harg11 : arg11.IsWhole) (arg12 : Memref sig .tc .vmem S1x128 .f32) (harg12 : arg12.IsWhole) (arg13 : Memref sig .tc .vmem S128x2048 .bf16) (harg13 : arg13.IsWhole) (arg14 : Memref sig .tc .vmem S1x128 .f32) (harg14 : arg14.IsWhole) (arg15 : Memref sig .tc .vmem S128x2048 .bf16) (harg15 : arg15.IsWhole) (arg16 : Memref sig .tc .vmem S1x128 .f32) (harg16 : arg16.IsWhole) (arg17 : Memref sig .tc .vmem S128x2048 .bf16) (harg17 : arg17.IsWhole) (arg18 : Memref sig .tc .vmem S1x128 .f32) (harg18 : arg18.IsWhole) (arg19 : Memref sig .tc .vmem S128x2048 .bf16) (harg19 : arg19.IsWhole) (arg20 : Memref sig .tc .vmem S1x128 .f32) (harg20 : arg20.IsWhole) (arg21 : Memref sig .tc .vmem S128x2048 .bf16) (harg21 : arg21.IsWhole) (arg22 : Memref sig .tc .vmem S1x128 .f32) (harg22 : arg22.IsWhole) (arg23 : Memref sig .tc .vmem S128x2048 .bf16) (harg23 : arg23.IsWhole) (arg24 : Memref sig .tc .vmem S1x128 .f32) (harg24 : arg24.IsWhole) (arg25 : Memref sig .tc .vmem S128x2048 .bf16) (harg25 : arg25.IsWhole) (arg26 : Memref sig .tc .vmem S1x128 .f32) (harg26 : arg26.IsWhole) (arg27 : Memref sig .tc .vmem S512x128 .f32) (harg27 : arg27.IsWhole) (arg28 : Memref sig .tc .vmem S512x128 .f32) (harg28 : arg28.IsWhole)
    (x0 : Vec F S512x2048 .f32) (x1 : Vec F S512x2048 .f32) (x2 : Vec F S512x2048 .f32) (x3 : Vec F S128x2048 .bf16) (x4 : Vec F S1x128 .f32) (x5 : Vec F S128x2048 .bf16) (x6 : Vec F S1x128 .f32) (x7 : Vec F S128x2048 .bf16) (x8 : Vec F S1x128 .f32) (x9 : Vec F S128x2048 .bf16) (x10 : Vec F S1x128 .f32) (x11 : Vec F S128x2048 .bf16) (x12 : Vec F S1x128 .f32) (x13 : Vec F S128x2048 .bf16) (x14 : Vec F S1x128 .f32) (x15 : Vec F S128x2048 .bf16) (x16 : Vec F S1x128 .f32) (x17 : Vec F S128x2048 .bf16) (x18 : Vec F S1x128 .f32) (x19 : Vec F S128x2048 .bf16) (x20 : Vec F S1x128 .f32) (x21 : Vec F S128x2048 .bf16) (x22 : Vec F S1x128 .f32) (x23 : Vec F S128x2048 .bf16) (x24 : Vec F S1x128 .f32) :
    out0_A_25 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24 = hiddenBlock ⟨x0, x1, x2, x3, x4, x5, x6, x7, x8, x9, x10, x11, x12, x13, x14, x15, x16, x17, x18, x19, x20, x21, x22, x23, x24⟩ (cpiece i x2) := by
  unfold out0_A_25
  rw [View.read_writes_eq_canon _ _ _ (cover0_A_25 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, View.ld_unit_zero (S := S512x2048) hz, View.ld_unit_zero (S := S128x2048) hz, View.ld_unit_zero (S := S1x128) hz, View.ld_unit_zero (S := S512x128) hz]
  rfl

/-- The piece at (p, q) is the c block at row p, column 128 · j + q. -/
theorem cpiece_apply (i : grid0.Coords) (x2 : Vec F S512x2048 .f32) (p : Fin 512) (q : Fin 128) :
    cpiece i x2 (ValueIdx.ix2 p q)
      = x2 (ValueIdx.ix2 p ⟨128 * (i 1).val + q.val, by have := (i 1).isLt; have h : (i 1).val < 16 := this; have := q.isLt; omega⟩) := by
  show x2 _ = x2 _
  congr 1
  funext a
  apply Fin.ext
  match a with
  | ⟨0, _⟩ =>
    show k0_off1 i 0 + 1 * p.val = p.val
    rw [k0_off1_eq]; show 0 + 1 * p.val = p.val; omega
  | ⟨1, _⟩ =>
    show k0_off1 i 1 + 1 * q.val = 128 * (i 1).val + q.val
    rw [k0_off1_eq]; show 128 * (i 1).val + 1 * q.val = _; omega

end Cert.KernelIdeal.Piece

end
-- ==== Proof.Reads.lean ====
/-
  What each block a grid point stages holds, in terms of the argument arrays.

  Grid point t = (I, J) of the 16 × 16 grid stages rows 512·I … 512·I+511 of x, h and c, weight rows 128·J … 128·J+127 of each
  of the eleven weight matrices, and the bias entries 128·J … 128·J+127 of each bias.  Before the grid runs, the host has only
  narrowed each weight matrix to a shorter float format (the identity on extended reals) and made each bias vector a one-row
  matrix.  So row p of a staged data block is array row 512·I + p, row q of a staged weight block is weight row 128·J + q, and
  entry q of a staged bias block is bias entry 128·J + q.
-/
import proofs.«158424_j80350248173768_1_alg».proof.Proof.Piece
import Idealize.ShloMosaic.Lib.Pipeline.Value
import Idealize.ShloMosaic.Lib.StableHlo.Run
import Idealize.ShloMosaic.Lib.ValueLayout

set_option maxRecDepth 16384

noncomputable section

namespace Cert.KernelIdeal.Reads

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.Body Cert.KernelIdeal.Piece

variable (m : (ℓ : Loc nD τ sig) → Buf (Elt Ideal) ℓ) (ρ : Dev nD → PrngReg)

/-- A grid coordinate, as the 32-bit word the index maps compute with, is itself. -/
theorem toNat_coord (n : Nat) (h : n < 16) : (BitVec.ofNat 32 n).toNat = n := by
  rw [BitVec.toNat_ofNat]; omega

/-- The grid row of point t. -/
abbrev gI (t : Fin cfg0.N) : Nat := (grid0.coords t 0).val
/-- The grid column of point t. -/
abbrev gJ (t : Fin cfg0.N) : Nat := (grid0.coords t 1).val
theorem gI_lt (t : Fin cfg0.N) : gI t < 16 := (grid0.coords t 0).isLt
theorem gJ_lt (t : Fin cfg0.N) : gJ t < 16 := (grid0.coords t 1).isLt

/-- The array row that row p of point t's blocks is. -/
def rowOf (t : Fin cfg0.N) (p : Fin 512) : Fin 8192 := ⟨gI t * 512 + p.val, by have := gI_lt t; have := p.isLt; omega⟩
/-- The weight row, bias entry and result column that position q of point t's blocks is. -/
def colOf (t : Fin cfg0.N) (q : Fin 128) : Fin 2048 := ⟨gJ t * 128 + q.val, by have := gJ_lt t; have := q.isLt; omega⟩

/-- The kernel's 25 argument arrays, as launched, as the cell's arguments. -/
def args (c : Dev nD) : Cert.Cell.Args :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14),
   m ((c : Thread nD τ).loc main_arg15),
   m ((c : Thread nD τ).loc main_arg16),
   m ((c : Thread nD τ).loc main_arg17),
   m ((c : Thread nD τ).loc main_arg18),
   m ((c : Thread nD τ).loc main_arg19),
   m ((c : Thread nD τ).loc main_arg20),
   m ((c : Thread nD τ).loc main_arg21),
   m ((c : Thread nD τ).loc main_arg22),
   m ((c : Thread nD τ).loc main_arg23),
   m ((c : Thread nD τ).loc main_arg24)⟩

/-! ## The arrays the region finds: the host's narrowed weights and one-row biases -/

theorem V_main_v0 (c : Dev nD) : (V m c main_v0 : S2048x2048.Idx → EReal) = (m ((c : Thread nD τ).loc main_arg3) : S2048x2048.Idx → EReal) := by
  dsimp only [Gen.V, Gen.hostOps0]; after_results; rfl
theorem V_main_v1 (c : Dev nD) : (V m c main_v1 : S2048x2048.Idx → EReal) = (m ((c : Thread nD τ).loc main_arg5) : S2048x2048.Idx → EReal) := by
  dsimp only [Gen.V, Gen.hostOps0]; after_results; rfl
theorem V_main_v2 (c : Dev nD) : (V m c main_v2 : S2048x2048.Idx → EReal) = (m ((c : Thread nD τ).loc main_arg7) : S2048x2048.Idx → EReal) := by
  dsimp only [Gen.V, Gen.hostOps0]; after_results; rfl
theorem V_main_v3 (c : Dev nD) : (V m c main_v3 : S2048x2048.Idx → EReal) = (m ((c : Thread nD τ).loc main_arg9) : S2048x2048.Idx → EReal) := by
  dsimp only [Gen.V, Gen.hostOps0]; after_results; rfl
theorem V_main_v4 (c : Dev nD) : (V m c main_v4 : S2048x2048.Idx → EReal) = (m ((c : Thread nD τ).loc main_arg11) : S2048x2048.Idx → EReal) := by
  dsimp only [Gen.V, Gen.hostOps0]; after_results; rfl
theorem V_main_v5 (c : Dev nD) : (V m c main_v5 : S2048x2048.Idx → EReal) = (m ((c : Thread nD τ).loc main_arg13) : S2048x2048.Idx → EReal) := by
  dsimp only [Gen.V, Gen.hostOps0]; after_results; rfl
theorem V_main_v6 (c : Dev nD) : (V m c main_v6 : S2048x2048.Idx → EReal) = (m ((c : Thread nD τ).loc main_arg15) : S2048x2048.Idx → EReal) := by
  dsimp only [Gen.V, Gen.hostOps0]; after_results; rfl
theorem V_main_v7 (c : Dev nD) : (V m c main_v7 : S2048x2048.Idx → EReal) = (m ((c : Thread nD τ).loc main_arg17) : S2048x2048.Idx → EReal) := by
  dsimp only [Gen.V, Gen.hostOps0]; after_results; rfl
theorem V_main_v8 (c : Dev nD) : (V m c main_v8 : S2048x2048.Idx → EReal) = (m ((c : Thread nD τ).loc main_arg19) : S2048x2048.Idx → EReal) := by
  dsimp only [Gen.V, Gen.hostOps0]; after_results; rfl
theorem V_main_v9 (c : Dev nD) : (V m c main_v9 : S2048x2048.Idx → EReal) = (m ((c : Thread nD τ).loc main_arg21) : S2048x2048.Idx → EReal) := by
  dsimp only [Gen.V, Gen.hostOps0]; after_results; rfl
theorem V_main_v10 (c : Dev nD) : (V m c main_v10 : S2048x2048.Idx → EReal) = (m ((c : Thread nD τ).loc main_arg23) : S2048x2048.Idx → EReal) := by
  dsimp only [Gen.V, Gen.hostOps0]; after_results; rfl
theorem V_main_v11 (c : Dev nD) : (V m c main_v11 : S1x2048.Idx → EReal) = shapeCast S1x2048 (m ((c : Thread nD τ).loc main_arg4)) shapeCasts_S2048_S1x2048 := by
  dsimp only [Gen.V, Gen.hostOps0]; after_results; rfl
theorem V_main_v12 (c : Dev nD) : (V m c main_v12 : S1x2048.Idx → EReal) = shapeCast S1x2048 (m ((c : Thread nD τ).loc main_arg6)) shapeCasts_S2048_S1x2048 := by
  dsimp only [Gen.V, Gen.hostOps0]; after_results; rfl
theorem V_main_v13 (c : Dev nD) : (V m c main_v13 : S1x2048.Idx → EReal) = shapeCast S1x2048 (m ((c : Thread nD τ).loc main_arg8)) shapeCasts_S2048_S1x2048 := by
  dsimp only [Gen.V, Gen.hostOps0]; after_results; rfl
theorem V_main_v14 (c : Dev nD) : (V m c main_v14 : S1x2048.Idx → EReal) = shapeCast S1x2048 (m ((c : Thread nD τ).loc main_arg10)) shapeCasts_S2048_S1x2048 := by
  dsimp only [Gen.V, Gen.hostOps0]; after_results; rfl
theorem V_main_v15 (c : Dev nD) : (V m c main_v15 : S1x2048.Idx → EReal) = shapeCast S1x2048 (m ((c : Thread nD τ).loc main_arg12)) shapeCasts_S2048_S1x2048 := by
  dsimp only [Gen.V, Gen.hostOps0]; after_results; rfl
theorem V_main_v16 (c : Dev nD) : (V m c main_v16 : S1x2048.Idx → EReal) = shapeCast S1x2048 (m ((c : Thread nD τ).loc main_arg14)) shapeCasts_S2048_S1x2048 := by
  dsimp only [Gen.V, Gen.hostOps0]; after_results; rfl
theorem V_main_v17 (c : Dev nD) : (V m c main_v17 : S1x2048.Idx → EReal) = shapeCast S1x2048 (m ((c : Thread nD τ).loc main_arg16)) shapeCasts_S2048_S1x2048 := by
  dsimp only [Gen.V, Gen.hostOps0]; after_results; rfl
theorem V_main_v18 (c : Dev nD) : (V m c main_v18 : S1x2048.Idx → EReal) = shapeCast S1x2048 (m ((c : Thread nD τ).loc main_arg18)) shapeCasts_S2048_S1x2048 := by
  dsimp only [Gen.V, Gen.hostOps0]; after_results; rfl
theorem V_main_v19 (c : Dev nD) : (V m c main_v19 : S1x2048.Idx → EReal) = shapeCast S1x2048 (m ((c : Thread nD τ).loc main_arg20)) shapeCasts_S2048_S1x2048 := by
  dsimp only [Gen.V, Gen.hostOps0]; after_results; rfl
theorem V_main_v20 (c : Dev nD) : (V m c main_v20 : S1x2048.Idx → EReal) = shapeCast S1x2048 (m ((c : Thread nD τ).loc main_arg22)) shapeCasts_S2048_S1x2048 := by
  dsimp only [Gen.V, Gen.hostOps0]; after_results; rfl
theorem V_main_v21 (c : Dev nD) : (V m c main_v21 : S1x2048.Idx → EReal) = shapeCast S1x2048 (m ((c : Thread nD τ).loc main_arg24)) shapeCasts_S2048_S1x2048 := by
  dsimp only [Gen.V, Gen.hostOps0]; after_results; rfl

/-! ## What each staged block holds -/

/-- Row p of point t's block of argument 0 is array row 512·I + p. -/
theorem read0 (c : Dev nD) (t : Fin cfg0.N) (p : Fin 512) (k : Fin 2048) :
    (iblk m c 0 t : Vec Ideal S512x2048 .f32) (ix2 p k) = m ((c : Thread nD τ).loc main_arg0) (ix2 (rowOf t p) k) := by
  have hI := gI_lt t
  unfold iblk
  rw [View.read_apply]
  show V m c main_arg0 _ = _
  rw [V_main_arg0]
  show m ((c : Thread nD τ).loc main_arg0) _ = m ((c : Thread nD τ).loc main_arg0) _
  congr 1
  funext a
  apply Fin.ext
  match a with
  | ⟨0, _⟩ =>
    show (BitVec.ofNat 32 (gI t)).toNat * 512 + 1 * p.val = gI t * 512 + p.val
    rw [toNat_coord _ hI]; omega
  | ⟨1, _⟩ =>
    show 0 * 2048 + 1 * k.val = k.val
    omega

/-- Row p of point t's block of argument 1 is array row 512·I + p. -/
theorem read1 (c : Dev nD) (t : Fin cfg0.N) (p : Fin 512) (k : Fin 2048) :
    (iblk m c 1 t : Vec Ideal S512x2048 .f32) (ix2 p k) = m ((c : Thread nD τ).loc main_arg1) (ix2 (rowOf t p) k) := by
  have hI := gI_lt t
  unfold iblk
  rw [View.read_apply]
  show V m c main_arg1 _ = _
  rw [V_main_arg1]
  show m ((c : Thread nD τ).loc main_arg1) _ = m ((c : Thread nD τ).loc main_arg1) _
  congr 1
  funext a
  apply Fin.ext
  match a with
  | ⟨0, _⟩ =>
    show (BitVec.ofNat 32 (gI t)).toNat * 512 + 1 * p.val = gI t * 512 + p.val
    rw [toNat_coord _ hI]; omega
  | ⟨1, _⟩ =>
    show 0 * 2048 + 1 * k.val = k.val
    omega

/-- Row p of point t's block of argument 2 is array row 512·I + p. -/
theorem read2 (c : Dev nD) (t : Fin cfg0.N) (p : Fin 512) (k : Fin 2048) :
    (iblk m c 2 t : Vec Ideal S512x2048 .f32) (ix2 p k) = m ((c : Thread nD τ).loc main_arg2) (ix2 (rowOf t p) k) := by
  have hI := gI_lt t
  unfold iblk
  rw [View.read_apply]
  show V m c main_arg2 _ = _
  rw [V_main_arg2]
  show m ((c : Thread nD τ).loc main_arg2) _ = m ((c : Thread nD τ).loc main_arg2) _
  congr 1
  funext a
  apply Fin.ext
  match a with
  | ⟨0, _⟩ =>
    show (BitVec.ofNat 32 (gI t)).toNat * 512 + 1 * p.val = gI t * 512 + p.val
    rw [toNat_coord _ hI]; omega
  | ⟨1, _⟩ =>
    show 0 * 2048 + 1 * k.val = k.val
    omega

/-- Row q of point t's block of the narrowed weights main_arg3 is weight row 128·J + q. -/
theorem read3 (c : Dev nD) (t : Fin cfg0.N) (q : Fin 128) (k : Fin 2048) :
    (iblk m c 3 t : Vec Ideal S128x2048 .bf16) (ix2 q k) = m ((c : Thread nD τ).loc main_arg3) (ix2 (colOf t q) k) := by
  have hJ := gJ_lt t
  unfold iblk
  rw [View.read_apply]
  show V m c main_v0 _ = _
  rw [V_main_v0]
  show m ((c : Thread nD τ).loc main_arg3) _ = m ((c : Thread nD τ).loc main_arg3) _
  congr 1
  funext a
  apply Fin.ext
  match a with
  | ⟨0, _⟩ =>
    show (BitVec.ofNat 32 (gJ t)).toNat * 128 + 1 * q.val = gJ t * 128 + q.val
    rw [toNat_coord _ hJ]; omega
  | ⟨1, _⟩ =>
    show 0 * 2048 + 1 * k.val = k.val
    omega

/-- Entry q of point t's block of the one-row bias main_arg4 is bias entry 128·J + q. -/
theorem read4 (c : Dev nD) (t : Fin cfg0.N) (q : Fin 128) :
    (iblk m c 4 t : Vec Ideal S1x128 .f32) (ix2 (0 : Fin 1) q) = m ((c : Thread nD τ).loc main_arg4) (ix1 (colOf t q)) := by
  have hJ := gJ_lt t
  unfold iblk
  rw [View.read_apply]
  show V m c main_v11 _ = _
  rw [V_main_v11]
  refine (congrArg (shapeCast S1x2048 (m ((c : Thread nD τ).loc main_arg4)) shapeCasts_S2048_S1x2048)
    (?_ : _ = ix2 (0 : Fin 1) (colOf t q))).trans (shapeCast_a_1a_apply _ _ _ _)
  funext a
  apply Fin.ext
  match a with
  | ⟨0, _⟩ =>
    show 0 * 1 + 1 * 0 = 0
    omega
  | ⟨1, _⟩ =>
    show (BitVec.ofNat 32 (gJ t)).toNat * 128 + 1 * q.val = gJ t * 128 + q.val
    rw [toNat_coord _ hJ]; omega

/-- Row q of point t's block of the narrowed weights main_arg5 is weight row 128·J + q. -/
theorem read5 (c : Dev nD) (t : Fin cfg0.N) (q : Fin 128) (k : Fin 2048) :
    (iblk m c 5 t : Vec Ideal S128x2048 .bf16) (ix2 q k) = m ((c : Thread nD τ).loc main_arg5) (ix2 (colOf t q) k) := by
  have hJ := gJ_lt t
  unfold iblk
  rw [View.read_apply]
  show V m c main_v1 _ = _
  rw [V_main_v1]
  show m ((c : Thread nD τ).loc main_arg5) _ = m ((c : Thread nD τ).loc main_arg5) _
  congr 1
  funext a
  apply Fin.ext
  match a with
  | ⟨0, _⟩ =>
    show (BitVec.ofNat 32 (gJ t)).toNat * 128 + 1 * q.val = gJ t * 128 + q.val
    rw [toNat_coord _ hJ]; omega
  | ⟨1, _⟩ =>
    show 0 * 2048 + 1 * k.val = k.val
    omega

/-- Entry q of point t's block of the one-row bias main_arg6 is bias entry 128·J + q. -/
theorem read6 (c : Dev nD) (t : Fin cfg0.N) (q : Fin 128) :
    (iblk m c 6 t : Vec Ideal S1x128 .f32) (ix2 (0 : Fin 1) q) = m ((c : Thread nD τ).loc main_arg6) (ix1 (colOf t q)) := by
  have hJ := gJ_lt t
  unfold iblk
  rw [View.read_apply]
  show V m c main_v12 _ = _
  rw [V_main_v12]
  refine (congrArg (shapeCast S1x2048 (m ((c : Thread nD τ).loc main_arg6)) shapeCasts_S2048_S1x2048)
    (?_ : _ = ix2 (0 : Fin 1) (colOf t q))).trans (shapeCast_a_1a_apply _ _ _ _)
  funext a
  apply Fin.ext
  match a with
  | ⟨0, _⟩ =>
    show 0 * 1 + 1 * 0 = 0
    omega
  | ⟨1, _⟩ =>
    show (BitVec.ofNat 32 (gJ t)).toNat * 128 + 1 * q.val = gJ t * 128 + q.val
    rw [toNat_coord _ hJ]; omega

/-- Row q of point t's block of the narrowed weights main_arg7 is weight row 128·J + q. -/
theorem read7 (c : Dev nD) (t : Fin cfg0.N) (q : Fin 128) (k : Fin 2048) :
    (iblk m c 7 t : Vec Ideal S128x2048 .bf16) (ix2 q k) = m ((c : Thread nD τ).loc main_arg7) (ix2 (colOf t q) k) := by
  have hJ := gJ_lt t
  unfold iblk
  rw [View.read_apply]
  show V m c main_v2 _ = _
  rw [V_main_v2]
  show m ((c : Thread nD τ).loc main_arg7) _ = m ((c : Thread nD τ).loc main_arg7) _
  congr 1
  funext a
  apply Fin.ext
  match a with
  | ⟨0, _⟩ =>
    show (BitVec.ofNat 32 (gJ t)).toNat * 128 + 1 * q.val = gJ t * 128 + q.val
    rw [toNat_coord _ hJ]; omega
  | ⟨1, _⟩ =>
    show 0 * 2048 + 1 * k.val = k.val
    omega

/-- Entry q of point t's block of the one-row bias main_arg8 is bias entry 128·J + q. -/
theorem read8 (c : Dev nD) (t : Fin cfg0.N) (q : Fin 128) :
    (iblk m c 8 t : Vec Ideal S1x128 .f32) (ix2 (0 : Fin 1) q) = m ((c : Thread nD τ).loc main_arg8) (ix1 (colOf t q)) := by
  have hJ := gJ_lt t
  unfold iblk
  rw [View.read_apply]
  show V m c main_v13 _ = _
  rw [V_main_v13]
  refine (congrArg (shapeCast S1x2048 (m ((c : Thread nD τ).loc main_arg8)) shapeCasts_S2048_S1x2048)
    (?_ : _ = ix2 (0 : Fin 1) (colOf t q))).trans (shapeCast_a_1a_apply _ _ _ _)
  funext a
  apply Fin.ext
  match a with
  | ⟨0, _⟩ =>
    show 0 * 1 + 1 * 0 = 0
    omega
  | ⟨1, _⟩ =>
    show (BitVec.ofNat 32 (gJ t)).toNat * 128 + 1 * q.val = gJ t * 128 + q.val
    rw [toNat_coord _ hJ]; omega

/-- Row q of point t's block of the narrowed weights main_arg9 is weight row 128·J + q. -/
theorem read9 (c : Dev nD) (t : Fin cfg0.N) (q : Fin 128) (k : Fin 2048) :
    (iblk m c 9 t : Vec Ideal S128x2048 .bf16) (ix2 q k) = m ((c : Thread nD τ).loc main_arg9) (ix2 (colOf t q) k) := by
  have hJ := gJ_lt t
  unfold iblk
  rw [View.read_apply]
  show V m c main_v3 _ = _
  rw [V_main_v3]
  show m ((c : Thread nD τ).loc main_arg9) _ = m ((c : Thread nD τ).loc main_arg9) _
  congr 1
  funext a
  apply Fin.ext
  match a with
  | ⟨0, _⟩ =>
    show (BitVec.ofNat 32 (gJ t)).toNat * 128 + 1 * q.val = gJ t * 128 + q.val
    rw [toNat_coord _ hJ]; omega
  | ⟨1, _⟩ =>
    show 0 * 2048 + 1 * k.val = k.val
    omega

/-- Entry q of point t's block of the one-row bias main_arg10 is bias entry 128·J + q. -/
theorem read10 (c : Dev nD) (t : Fin cfg0.N) (q : Fin 128) :
    (iblk m c 10 t : Vec Ideal S1x128 .f32) (ix2 (0 : Fin 1) q) = m ((c : Thread nD τ).loc main_arg10) (ix1 (colOf t q)) := by
  have hJ := gJ_lt t
  unfold iblk
  rw [View.read_apply]
  show V m c main_v14 _ = _
  rw [V_main_v14]
  refine (congrArg (shapeCast S1x2048 (m ((c : Thread nD τ).loc main_arg10)) shapeCasts_S2048_S1x2048)
    (?_ : _ = ix2 (0 : Fin 1) (colOf t q))).trans (shapeCast_a_1a_apply _ _ _ _)
  funext a
  apply Fin.ext
  match a with
  | ⟨0, _⟩ =>
    show 0 * 1 + 1 * 0 = 0
    omega
  | ⟨1, _⟩ =>
    show (BitVec.ofNat 32 (gJ t)).toNat * 128 + 1 * q.val = gJ t * 128 + q.val
    rw [toNat_coord _ hJ]; omega

/-- Row q of point t's block of the narrowed weights main_arg11 is weight row 128·J + q. -/
theorem read11 (c : Dev nD) (t : Fin cfg0.N) (q : Fin 128) (k : Fin 2048) :
    (iblk m c 11 t : Vec Ideal S128x2048 .bf16) (ix2 q k) = m ((c : Thread nD τ).loc main_arg11) (ix2 (colOf t q) k) := by
  have hJ := gJ_lt t
  unfold iblk
  rw [View.read_apply]
  show V m c main_v4 _ = _
  rw [V_main_v4]
  show m ((c : Thread nD τ).loc main_arg11) _ = m ((c : Thread nD τ).loc main_arg11) _
  congr 1
  funext a
  apply Fin.ext
  match a with
  | ⟨0, _⟩ =>
    show (BitVec.ofNat 32 (gJ t)).toNat * 128 + 1 * q.val = gJ t * 128 + q.val
    rw [toNat_coord _ hJ]; omega
  | ⟨1, _⟩ =>
    show 0 * 2048 + 1 * k.val = k.val
    omega

/-- Entry q of point t's block of the one-row bias main_arg12 is bias entry 128·J + q. -/
theorem read12 (c : Dev nD) (t : Fin cfg0.N) (q : Fin 128) :
    (iblk m c 12 t : Vec Ideal S1x128 .f32) (ix2 (0 : Fin 1) q) = m ((c : Thread nD τ).loc main_arg12) (ix1 (colOf t q)) := by
  have hJ := gJ_lt t
  unfold iblk
  rw [View.read_apply]
  show V m c main_v15 _ = _
  rw [V_main_v15]
  refine (congrArg (shapeCast S1x2048 (m ((c : Thread nD τ).loc main_arg12)) shapeCasts_S2048_S1x2048)
    (?_ : _ = ix2 (0 : Fin 1) (colOf t q))).trans (shapeCast_a_1a_apply _ _ _ _)
  funext a
  apply Fin.ext
  match a with
  | ⟨0, _⟩ =>
    show 0 * 1 + 1 * 0 = 0
    omega
  | ⟨1, _⟩ =>
    show (BitVec.ofNat 32 (gJ t)).toNat * 128 + 1 * q.val = gJ t * 128 + q.val
    rw [toNat_coord _ hJ]; omega

/-- Row q of point t's block of the narrowed weights main_arg13 is weight row 128·J + q. -/
theorem read13 (c : Dev nD) (t : Fin cfg0.N) (q : Fin 128) (k : Fin 2048) :
    (iblk m c 13 t : Vec Ideal S128x2048 .bf16) (ix2 q k) = m ((c : Thread nD τ).loc main_arg13) (ix2 (colOf t q) k) := by
  have hJ := gJ_lt t
  unfold iblk
  rw [View.read_apply]
  show V m c main_v5 _ = _
  rw [V_main_v5]
  show m ((c : Thread nD τ).loc main_arg13) _ = m ((c : Thread nD τ).loc main_arg13) _
  congr 1
  funext a
  apply Fin.ext
  match a with
  | ⟨0, _⟩ =>
    show (BitVec.ofNat 32 (gJ t)).toNat * 128 + 1 * q.val = gJ t * 128 + q.val
    rw [toNat_coord _ hJ]; omega
  | ⟨1, _⟩ =>
    show 0 * 2048 + 1 * k.val = k.val
    omega

/-- Entry q of point t's block of the one-row bias main_arg14 is bias entry 128·J + q. -/
theorem read14 (c : Dev nD) (t : Fin cfg0.N) (q : Fin 128) :
    (iblk m c 14 t : Vec Ideal S1x128 .f32) (ix2 (0 : Fin 1) q) = m ((c : Thread nD τ).loc main_arg14) (ix1 (colOf t q)) := by
  have hJ := gJ_lt t
  unfold iblk
  rw [View.read_apply]
  show V m c main_v16 _ = _
  rw [V_main_v16]
  refine (congrArg (shapeCast S1x2048 (m ((c : Thread nD τ).loc main_arg14)) shapeCasts_S2048_S1x2048)
    (?_ : _ = ix2 (0 : Fin 1) (colOf t q))).trans (shapeCast_a_1a_apply _ _ _ _)
  funext a
  apply Fin.ext
  match a with
  | ⟨0, _⟩ =>
    show 0 * 1 + 1 * 0 = 0
    omega
  | ⟨1, _⟩ =>
    show (BitVec.ofNat 32 (gJ t)).toNat * 128 + 1 * q.val = gJ t * 128 + q.val
    rw [toNat_coord _ hJ]; omega

/-- Row q of point t's block of the narrowed weights main_arg15 is weight row 128·J + q. -/
theorem read15 (c : Dev nD) (t : Fin cfg0.N) (q : Fin 128) (k : Fin 2048) :
    (iblk m c 15 t : Vec Ideal S128x2048 .bf16) (ix2 q k) = m ((c : Thread nD τ).loc main_arg15) (ix2 (colOf t q) k) := by
  have hJ := gJ_lt t
  unfold iblk
  rw [View.read_apply]
  show V m c main_v6 _ = _
  rw [V_main_v6]
  show m ((c : Thread nD τ).loc main_arg15) _ = m ((c : Thread nD τ).loc main_arg15) _
  congr 1
  funext a
  apply Fin.ext
  match a with
  | ⟨0, _⟩ =>
    show (BitVec.ofNat 32 (gJ t)).toNat * 128 + 1 * q.val = gJ t * 128 + q.val
    rw [toNat_coord _ hJ]; omega
  | ⟨1, _⟩ =>
    show 0 * 2048 + 1 * k.val = k.val
    omega

/-- Entry q of point t's block of the one-row bias main_arg16 is bias entry 128·J + q. -/
theorem read16 (c : Dev nD) (t : Fin cfg0.N) (q : Fin 128) :
    (iblk m c 16 t : Vec Ideal S1x128 .f32) (ix2 (0 : Fin 1) q) = m ((c : Thread nD τ).loc main_arg16) (ix1 (colOf t q)) := by
  have hJ := gJ_lt t
  unfold iblk
  rw [View.read_apply]
  show V m c main_v17 _ = _
  rw [V_main_v17]
  refine (congrArg (shapeCast S1x2048 (m ((c : Thread nD τ).loc main_arg16)) shapeCasts_S2048_S1x2048)
    (?_ : _ = ix2 (0 : Fin 1) (colOf t q))).trans (shapeCast_a_1a_apply _ _ _ _)
  funext a
  apply Fin.ext
  match a with
  | ⟨0, _⟩ =>
    show 0 * 1 + 1 * 0 = 0
    omega
  | ⟨1, _⟩ =>
    show (BitVec.ofNat 32 (gJ t)).toNat * 128 + 1 * q.val = gJ t * 128 + q.val
    rw [toNat_coord _ hJ]; omega

/-- Row q of point t's block of the narrowed weights main_arg17 is weight row 128·J + q. -/
theorem read17 (c : Dev nD) (t : Fin cfg0.N) (q : Fin 128) (k : Fin 2048) :
    (iblk m c 17 t : Vec Ideal S128x2048 .bf16) (ix2 q k) = m ((c : Thread nD τ).loc main_arg17) (ix2 (colOf t q) k) := by
  have hJ := gJ_lt t
  unfold iblk
  rw [View.read_apply]
  show V m c main_v7 _ = _
  rw [V_main_v7]
  show m ((c : Thread nD τ).loc main_arg17) _ = m ((c : Thread nD τ).loc main_arg17) _
  congr 1
  funext a
  apply Fin.ext
  match a with
  | ⟨0, _⟩ =>
    show (BitVec.ofNat 32 (gJ t)).toNat * 128 + 1 * q.val = gJ t * 128 + q.val
    rw [toNat_coord _ hJ]; omega
  | ⟨1, _⟩ =>
    show 0 * 2048 + 1 * k.val = k.val
    omega

/-- Entry q of point t's block of the one-row bias main_arg18 is bias entry 128·J + q. -/
theorem read18 (c : Dev nD) (t : Fin cfg0.N) (q : Fin 128) :
    (iblk m c 18 t : Vec Ideal S1x128 .f32) (ix2 (0 : Fin 1) q) = m ((c : Thread nD τ).loc main_arg18) (ix1 (colOf t q)) := by
  have hJ := gJ_lt t
  unfold iblk
  rw [View.read_apply]
  show V m c main_v18 _ = _
  rw [V_main_v18]
  refine (congrArg (shapeCast S1x2048 (m ((c : Thread nD τ).loc main_arg18)) shapeCasts_S2048_S1x2048)
    (?_ : _ = ix2 (0 : Fin 1) (colOf t q))).trans (shapeCast_a_1a_apply _ _ _ _)
  funext a
  apply Fin.ext
  match a with
  | ⟨0, _⟩ =>
    show 0 * 1 + 1 * 0 = 0
    omega
  | ⟨1, _⟩ =>
    show (BitVec.ofNat 32 (gJ t)).toNat * 128 + 1 * q.val = gJ t * 128 + q.val
    rw [toNat_coord _ hJ]; omega

/-- Row q of point t's block of the narrowed weights main_arg19 is weight row 128·J + q. -/
theorem read19 (c : Dev nD) (t : Fin cfg0.N) (q : Fin 128) (k : Fin 2048) :
    (iblk m c 19 t : Vec Ideal S128x2048 .bf16) (ix2 q k) = m ((c : Thread nD τ).loc main_arg19) (ix2 (colOf t q) k) := by
  have hJ := gJ_lt t
  unfold iblk
  rw [View.read_apply]
  show V m c main_v8 _ = _
  rw [V_main_v8]
  show m ((c : Thread nD τ).loc main_arg19) _ = m ((c : Thread nD τ).loc main_arg19) _
  congr 1
  funext a
  apply Fin.ext
  match a with
  | ⟨0, _⟩ =>
    show (BitVec.ofNat 32 (gJ t)).toNat * 128 + 1 * q.val = gJ t * 128 + q.val
    rw [toNat_coord _ hJ]; omega
  | ⟨1, _⟩ =>
    show 0 * 2048 + 1 * k.val = k.val
    omega

/-- Entry q of point t's block of the one-row bias main_arg20 is bias entry 128·J + q. -/
theorem read20 (c : Dev nD) (t : Fin cfg0.N) (q : Fin 128) :
    (iblk m c 20 t : Vec Ideal S1x128 .f32) (ix2 (0 : Fin 1) q) = m ((c : Thread nD τ).loc main_arg20) (ix1 (colOf t q)) := by
  have hJ := gJ_lt t
  unfold iblk
  rw [View.read_apply]
  show V m c main_v19 _ = _
  rw [V_main_v19]
  refine (congrArg (shapeCast S1x2048 (m ((c : Thread nD τ).loc main_arg20)) shapeCasts_S2048_S1x2048)
    (?_ : _ = ix2 (0 : Fin 1) (colOf t q))).trans (shapeCast_a_1a_apply _ _ _ _)
  funext a
  apply Fin.ext
  match a with
  | ⟨0, _⟩ =>
    show 0 * 1 + 1 * 0 = 0
    omega
  | ⟨1, _⟩ =>
    show (BitVec.ofNat 32 (gJ t)).toNat * 128 + 1 * q.val = gJ t * 128 + q.val
    rw [toNat_coord _ hJ]; omega

/-- Row q of point t's block of the narrowed weights main_arg21 is weight row 128·J + q. -/
theorem read21 (c : Dev nD) (t : Fin cfg0.N) (q : Fin 128) (k : Fin 2048) :
    (iblk m c 21 t : Vec Ideal S128x2048 .bf16) (ix2 q k) = m ((c : Thread nD τ).loc main_arg21) (ix2 (colOf t q) k) := by
  have hJ := gJ_lt t
  unfold iblk
  rw [View.read_apply]
  show V m c main_v9 _ = _
  rw [V_main_v9]
  show m ((c : Thread nD τ).loc main_arg21) _ = m ((c : Thread nD τ).loc main_arg21) _
  congr 1
  funext a
  apply Fin.ext
  match a with
  | ⟨0, _⟩ =>
    show (BitVec.ofNat 32 (gJ t)).toNat * 128 + 1 * q.val = gJ t * 128 + q.val
    rw [toNat_coord _ hJ]; omega
  | ⟨1, _⟩ =>
    show 0 * 2048 + 1 * k.val = k.val
    omega

/-- Entry q of point t's block of the one-row bias main_arg22 is bias entry 128·J + q. -/
theorem read22 (c : Dev nD) (t : Fin cfg0.N) (q : Fin 128) :
    (iblk m c 22 t : Vec Ideal S1x128 .f32) (ix2 (0 : Fin 1) q) = m ((c : Thread nD τ).loc main_arg22) (ix1 (colOf t q)) := by
  have hJ := gJ_lt t
  unfold iblk
  rw [View.read_apply]
  show V m c main_v20 _ = _
  rw [V_main_v20]
  refine (congrArg (shapeCast S1x2048 (m ((c : Thread nD τ).loc main_arg22)) shapeCasts_S2048_S1x2048)
    (?_ : _ = ix2 (0 : Fin 1) (colOf t q))).trans (shapeCast_a_1a_apply _ _ _ _)
  funext a
  apply Fin.ext
  match a with
  | ⟨0, _⟩ =>
    show 0 * 1 + 1 * 0 = 0
    omega
  | ⟨1, _⟩ =>
    show (BitVec.ofNat 32 (gJ t)).toNat * 128 + 1 * q.val = gJ t * 128 + q.val
    rw [toNat_coord _ hJ]; omega

/-- Row q of point t's block of the narrowed weights main_arg23 is weight row 128·J + q. -/
theorem read23 (c : Dev nD) (t : Fin cfg0.N) (q : Fin 128) (k : Fin 2048) :
    (iblk m c 23 t : Vec Ideal S128x2048 .bf16) (ix2 q k) = m ((c : Thread nD τ).loc main_arg23) (ix2 (colOf t q) k) := by
  have hJ := gJ_lt t
  unfold iblk
  rw [View.read_apply]
  show V m c main_v10 _ = _
  rw [V_main_v10]
  show m ((c : Thread nD τ).loc main_arg23) _ = m ((c : Thread nD τ).loc main_arg23) _
  congr 1
  funext a
  apply Fin.ext
  match a with
  | ⟨0, _⟩ =>
    show (BitVec.ofNat 32 (gJ t)).toNat * 128 + 1 * q.val = gJ t * 128 + q.val
    rw [toNat_coord _ hJ]; omega
  | ⟨1, _⟩ =>
    show 0 * 2048 + 1 * k.val = k.val
    omega

/-- Entry q of point t's block of the one-row bias main_arg24 is bias entry 128·J + q. -/
theorem read24 (c : Dev nD) (t : Fin cfg0.N) (q : Fin 128) :
    (iblk m c 24 t : Vec Ideal S1x128 .f32) (ix2 (0 : Fin 1) q) = m ((c : Thread nD τ).loc main_arg24) (ix1 (colOf t q)) := by
  have hJ := gJ_lt t
  unfold iblk
  rw [View.read_apply]
  show V m c main_v21 _ = _
  rw [V_main_v21]
  refine (congrArg (shapeCast S1x2048 (m ((c : Thread nD τ).loc main_arg24)) shapeCasts_S2048_S1x2048)
    (?_ : _ = ix2 (0 : Fin 1) (colOf t q))).trans (shapeCast_a_1a_apply _ _ _ _)
  funext a
  apply Fin.ext
  match a with
  | ⟨0, _⟩ =>
    show 0 * 1 + 1 * 0 = 0
    omega
  | ⟨1, _⟩ =>
    show (BitVec.ofNat 32 (gJ t)).toNat * 128 + 1 * q.val = gJ t * 128 + q.val
    rw [toNat_coord _ hJ]; omega

end Cert.KernelIdeal.Reads

end
-- ==== Proof.Final.lean ====
/-
  The kernel's two result arrays are the cell's new hidden state and new cell state, as whole arrays.

  Grid point t = (I, J) writes back block (I, J) — 512 rows by 128 columns — of each result.  Its staged blocks are its part
  of the argument arrays, so entry (p, q) of what it writes back is the cell's entry (512·I + p, 128·J + q); and since the 256
  blocks tile the 8192 × 2048 results, each result array ends holding the cell's function of the argument arrays.
-/
import proofs.«158424_j80350248173768_1_alg».proof.Proof.Reads
import Idealize.ShloMosaic.Lib.Pipeline.Value

set_option maxRecDepth 16384

noncomputable section

namespace Cert.KernelIdeal.Final

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.Body Cert.KernelIdeal.Piece Cert.KernelIdeal.Reads

variable (m : (ℓ : Loc nD τ sig) → Buf (Elt Ideal) ℓ) (ρ : Dev nD → PrngReg)

/-! ## What a point writes back -/

/-- The blocks point t loads. -/
def blocks (c : Dev nD) (t : Fin cfg0.N) : Blocks Ideal :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t, iblk m c 23 t, iblk m c 24 t⟩

/-- The piece of the c block point t reads for the elementwise update. -/
def piece (c : Dev nD) (t : Fin cfg0.N) : Vec Ideal S512x128 .f32 := cpiece (grid0.coords t) (iblk m c 2 t)

/-- The piece at (p, q) is c at (512·I + p, 128·J + q). -/
theorem piece_apply (c : Dev nD) (t : Fin cfg0.N) (p : Fin 512) (q : Fin 128) :
    piece m c t (ix2 p q) = m ((c : Thread nD τ).loc main_arg2) (ix2 (rowOf t p) (colOf t q)) := by
  unfold piece
  rw [cpiece_apply]
  refine (read2 m c t p _).trans (congrArg (fun k => m ((c : Thread nD τ).loc main_arg2) (ix2 (rowOf t p) k)) (Fin.ext ?_))
  show 128 * gJ t + q.val = gJ t * 128 + q.val
  omega

set_option maxHeartbeats 4000000 in
/-- Point t's blocks are its part of the argument arrays. -/
theorem agrees (c : Dev nD) (t : Fin cfg0.N) (p : Fin 512) (q : Fin 128) :
    Agrees (blocks m c t) (piece m c t) (args m c) p q (rowOf t p) (colOf t q) := by
  constructor
  · exact read0 m c t p
  · exact read1 m c t p
  · exact read2 m c t p
  · exact read3 m c t q
  · exact read4 m c t q
  · exact read5 m c t q
  · exact read6 m c t q
  · exact read7 m c t q
  · exact read8 m c t q
  · exact read9 m c t q
  · exact read10 m c t q
  · exact read11 m c t q
  · exact read12 m c t q
  · exact read13 m c t q
  · exact read14 m c t q
  · exact read15 m c t q
  · exact read16 m c t q
  · exact read17 m c t q
  · exact read18 m c t q
  · exact read19 m c t q
  · exact read20 m c t q
  · exact read21 m c t q
  · exact read22 m c t q
  · exact read23 m c t q
  · exact read24 m c t q
  · exact piece_apply m c t p q

/-- What point t writes back to result window 26 is block t of the cell's new cell state. -/
theorem flushed26_eq (c : Dev nD) (t : Fin cfg0.N) :
    (dats m 0 c).flushed 26 t = ((cfg0.win 26).blk t).view.read (Elt Ideal) (Cert.Cell.cArr (args m c)) := by
  rw [Value.flushed26_A m c t]
  have e := out26_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
  rw [e]
  funext j
  obtain ⟨p, q, rfl⟩ : ∃ (p : Fin 512) (q : Fin 128), j = ix2 p q := ⟨j 0, j 1, eq_ix2 j⟩
  rw [View.read_apply]
  show cellBlock (blocks m c t) (piece m c t) (ix2 p q) = Cert.Cell.cArr (args m c) _
  rw [cellBlock_apply (agrees m c t p q)]
  have hI := gI_lt t
  have hJ := gJ_lt t
  have hemb : ((cfg0.win 26).blk t).view.emb (ix2 p q) = ix2 (rowOf t p) (colOf t q) := by
    funext a
    apply Fin.ext
    match a with
    | ⟨0, _⟩ =>
      show (BitVec.ofNat 32 (gI t)).toNat * 512 + 1 * p.val = gI t * 512 + p.val
      rw [toNat_coord _ hI]; omega
    | ⟨1, _⟩ =>
      show (BitVec.ofNat 32 (gJ t)).toNat * 128 + 1 * q.val = gJ t * 128 + q.val
      rw [toNat_coord _ hJ]; omega
  rw [hemb]
  rfl

/-- What point t writes back to result window 25 is block t of the cell's new hidden state. -/
theorem flushed25_eq (c : Dev nD) (t : Fin cfg0.N) :
    (dats m 0 c).flushed 25 t = ((cfg0.win 25).blk t).view.read (Elt Ideal) (Cert.Cell.hArr (args m c)) := by
  rw [Value.flushed25_A m c t]
  have e := out25_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
  rw [e]
  funext j
  obtain ⟨p, q, rfl⟩ : ∃ (p : Fin 512) (q : Fin 128), j = ix2 p q := ⟨j 0, j 1, eq_ix2 j⟩
  rw [View.read_apply]
  show hiddenBlock (blocks m c t) (piece m c t) (ix2 p q) = Cert.Cell.hArr (args m c) _
  rw [hiddenBlock_apply (agrees m c t p q)]
  have hI := gI_lt t
  have hJ := gJ_lt t
  have hemb : ((cfg0.win 25).blk t).view.emb (ix2 p q) = ix2 (rowOf t p) (colOf t q) := by
    funext a
    apply Fin.ext
    match a with
    | ⟨0, _⟩ =>
      show (BitVec.ofNat 32 (gI t)).toNat * 512 + 1 * p.val = gI t * 512 + p.val
      rw [toNat_coord _ hI]; omega
    | ⟨1, _⟩ =>
      show (BitVec.ofNat 32 (gJ t)).toNat * 128 + 1 * q.val = gJ t * 128 + q.val
      rw [toNat_coord _ hJ]; omega
  rw [hemb]
  rfl

/-! ## The blocks tile the results -/

theorem stride0 : grid0.stride 0 = 16 := by decide
theorem stride1 : grid0.stride 1 = 1 := by decide

/-- The point of grid row I and grid column J. -/
def pointOf (I J : Nat) (hI : I < 16) (hJ : J < 16) : Fin cfg0.N := ⟨I * 16 + J, by rw [show cfg0.N = 256 from N_0]; omega⟩

theorem gI_pointOf (I J : Nat) (hI : I < 16) (hJ : J < 16) : gI (pointOf I J hI hJ) = I := by
  show (I * 16 + J) / grid0.stride 0 % 16 = I
  rw [stride0]; omega

theorem gJ_pointOf (I J : Nat) (hI : I < 16) (hJ : J < 16) : gJ (pointOf I J hI hJ) = J := by
  show (I * 16 + J) / grid0.stride 1 % 16 = J
  rw [stride1]; omega

/-- Every index of result 0 is in some point's block: the block of its row's and column's quotients by 512 and 128. -/
theorem cover25 (i : S8192x2048.Idx) : ∃ t : Fin cfg0.N, (cfg0.win 25).flush t = true ∧ i ∈ ((cfg0.win 25).blk t).view.set := by
  have h0 : (i 0).val < 8192 := (i 0).isLt
  have h1 : (i 1).val < 2048 := (i 1).isLt
  have hI : (i 0).val / 512 < 16 := by omega
  have hJ : (i 1).val / 128 < 16 := by omega
  refine ⟨pointOf _ _ hI hJ, flush0_25 _, ?_⟩
  show i ∈ ((View.whole main_v22_0).slice (win0_25.rect (pointOf _ _ hI hJ))).set
  rw [View.set_slice_whole, Rect.mem_set_unit]
  intro a
  match a with
  | ⟨0, _⟩ =>
    show (BitVec.ofNat 32 (gI (pointOf _ _ hI hJ))).toNat * 512 ≤ (i 0).val ∧ (i 0).val < (BitVec.ofNat 32 (gI (pointOf _ _ hI hJ))).toNat * 512 + 512
    rw [gI_pointOf, toNat_coord _ hI]; omega
  | ⟨1, _⟩ =>
    show (BitVec.ofNat 32 (gJ (pointOf _ _ hI hJ))).toNat * 128 ≤ (i 1).val ∧ (i 1).val < (BitVec.ofNat 32 (gJ (pointOf _ _ hI hJ))).toNat * 128 + 128
    rw [gJ_pointOf, toNat_coord _ hJ]; omega

/-- Every index of result 1 is in some point's block: the block of its row's and column's quotients by 512 and 128. -/
theorem cover26 (i : S8192x2048.Idx) : ∃ t : Fin cfg0.N, (cfg0.win 26).flush t = true ∧ i ∈ ((cfg0.win 26).blk t).view.set := by
  have h0 : (i 0).val < 8192 := (i 0).isLt
  have h1 : (i 1).val < 2048 := (i 1).isLt
  have hI : (i 0).val / 512 < 16 := by omega
  have hJ : (i 1).val / 128 < 16 := by omega
  refine ⟨pointOf _ _ hI hJ, flush0_26 _, ?_⟩
  show i ∈ ((View.whole main_v22_1).slice (win0_26.rect (pointOf _ _ hI hJ))).set
  rw [View.set_slice_whole, Rect.mem_set_unit]
  intro a
  match a with
  | ⟨0, _⟩ =>
    show (BitVec.ofNat 32 (gI (pointOf _ _ hI hJ))).toNat * 512 ≤ (i 0).val ∧ (i 0).val < (BitVec.ofNat 32 (gI (pointOf _ _ hI hJ))).toNat * 512 + 512
    rw [gI_pointOf, toNat_coord _ hI]; omega
  | ⟨1, _⟩ =>
    show (BitVec.ofNat 32 (gJ (pointOf _ _ hI hJ))).toNat * 128 ≤ (i 1).val ∧ (i 1).val < (BitVec.ofNat 32 (gJ (pointOf _ _ hI hJ))).toNat * 128 + 128
    rw [gJ_pointOf, toNat_coord _ hJ]; omega

/-- The first result array after the run is the cell's new hidden state. -/
theorem final25 (c : Dev nD) : (dats m 0 c).arrAt 25 cfg0.N = Cert.Cell.hArr (args m c) :=
  (dats m 0 c).arrAt_eq_of_cover 25 (Cert.Cell.hArr (args m c)) (fun t _ => flushed25_eq m c t) cover25

/-- The second result array after the run is the cell's new cell state. -/
theorem final26 (c : Dev nD) : (dats m 0 c).arrAt 26 cfg0.N = Cert.Cell.cArr (args m c) :=
  (dats m 0 c).arrAt_eq_of_cover 26 (Cert.Cell.cArr (args m c)) (fun t _ => flushed26_eq m c t) cover26

/-- The kernel's run: the results at the cell's function of the arguments, the arguments unchanged. -/
theorem run : θ_run (defs (F := Ideal)) (onTc (τ := τ) (main (F := Ideal))) ⟨m, fun _ => 0, ρ⟩ fun r => ∀ c : Dev nD,
      r.2.mem ((c : Thread nD τ).loc main_v22_0) = Cert.Cell.hArr (args m c)
      ∧ r.2.mem ((c : Thread nD τ).loc main_v22_1) = Cert.Cell.cArr (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24) :=
  (θ_run defs _ _).mono (fun r h c => ⟨(h c).1.trans (final25 m c), (h c).2.1.trans (final26 m c), (h c).2.2⟩)
    (Value.run_blocks m ρ)

end Cert.KernelIdeal.Final

end
-- ==== Proof.RefCell.lean ====
/-
  The reference's two results are the cell's new hidden state and new cell state.

  The reference builds everything from one affine projection of a batch array v by a weight matrix w and a bias b:
  the product of v with the transposed weights, plus the bias made a one-row matrix and repeated down the rows.  At
  entry (p, q) that is  ( ∑ k, v (p, k) · w (q, k) ) + b q .  It spells the logistic function as  1 / (1 + e^(−t)) ,
  with the constant 1 a scalar repeated over the whole array.  A gate is the logistic function of two projections plus
  the hyperbolic tangent of a third; the candidate is the hyperbolic tangent of two projections; then
  c' = f · c + i · g  and  h' = o · tanh c' .

  First, for any float values, the two terms the reference's run ends at are these compositions of the argument arrays
  (the same operations in the same order, so nothing is computed).  Then, over the extended reals, each block is read at
  an entry: the projection is the cell's  lin , the expanded logistic function is the logistic function, and so entry
  by entry the two arrays are the cell's  cNew  and  hNew .
-/
import proofs.«158424_j80350248173768_1_alg».proof.Proof.Gen.ReferenceIdeal.Run
import proofs.«158424_j80350248173768_1_alg».proof.Proof.Spec
import proofs.«158424_j80350248173768_1_alg».proof.Proof.Proj
import Idealize.ShloMosaic.PureOps.Ideal
import Idealize.ShloMosaic.Lib.ValueIdx
import Idealize.ShloMosaic.Lib.IdealHost

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-! ## The reference's building blocks, for any float values -/

section Blocks

variable {F : FTy → Type} [FloatOps F]

/-- The affine projection: the data times the transposed weights, plus the bias repeated down the rows. -/
def hlin (x : FVec F S8192x2048 .f32) (w : FVec F S2048x2048 .f32) (b : FVec F S2048 .f32) : FVec F S8192x2048 .f32 :=
  addf (Host.dotGeneral dot_S8192x2048_S2048x2048_S8192x2048_1_0_0_1_n_n none x
      (transpose S2048x2048 [1, 0] w transposes_S2048x2048_S2048x2048_1_0))
    (broadcastInDim S8192x2048 ![0, 1] bcast_S1x2048_S8192x2048_0_1 (broadcastInDim S1x2048 ![1] bcast_S2048_S1x2048_1 b))

/-- The constant 1, a scalar repeated over the whole array. -/
def hone : FVec F S8192x2048 .f32 :=
  broadcastInDim S8192x2048 ![] bcast_S_S8192x2048 (constant S_ .f32 0x3F800000#32)

/-- The logistic function, expanded:  1 / (1 + e^(−t)) . -/
def hsig (t : FVec F S8192x2048 .f32) : FVec F S8192x2048 .f32 :=
  Host.divf hone (addf hone (Host.exp (Host.negf t)))

/-- A gate: the logistic function of the x- and h-projections plus the squashed c-projection. -/
def hgate (x h c : FVec F S8192x2048 .f32) (wx : FVec F S2048x2048 .f32) (bx : FVec F S2048 .f32)
    (wh : FVec F S2048x2048 .f32) (bh : FVec F S2048 .f32) (wc : FVec F S2048x2048 .f32) (bc : FVec F S2048 .f32) :
    FVec F S8192x2048 .f32 :=
  hsig (addf (addf (hlin x wx bx) (hlin h wh bh)) (Host.tanh (hlin c wc bc)))

/-- The candidate: the hyperbolic tangent of the x- and h-projections. -/
def hcand (x h : FVec F S8192x2048 .f32) (wx : FVec F S2048x2048 .f32) (bx : FVec F S2048 .f32)
    (wh : FVec F S2048x2048 .f32) (bh : FVec F S2048 .f32) : FVec F S8192x2048 .f32 :=
  Host.tanh (addf (hlin x wx bx) (hlin h wh bh))

variable (m : (ℓ : Loc nD τ sig) → Buf (Elt F) ℓ) (c : Dev nD)

/-- The new cell state  f · c + i · g  of the argument arrays. -/
def cTerm : Buf (Elt F) ((c.tc : Thread nD τ).loc main_v68) :=
  addf
    (mulf (hgate (m ((c.tc : Thread nD τ).loc main_arg0)) (m ((c.tc : Thread nD τ).loc main_arg1)) (m ((c.tc : Thread nD τ).loc main_arg2))
        (m ((c.tc : Thread nD τ).loc main_arg9)) (m ((c.tc : Thread nD τ).loc main_arg10)) (m ((c.tc : Thread nD τ).loc main_arg11)) (m ((c.tc : Thread nD τ).loc main_arg12))
        (m ((c.tc : Thread nD τ).loc main_arg13)) (m ((c.tc : Thread nD τ).loc main_arg14)))
      (m ((c.tc : Thread nD τ).loc main_arg2)))
    (mulf (hgate (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)))
      (hcand (m ((c.tc : Thread nD τ).loc main_arg0)) (m ((c.tc : Thread nD τ).loc main_arg1))
        (m ((c.tc : Thread nD τ).loc main_arg21)) (m ((c.tc : Thread nD τ).loc main_arg22)) (m ((c.tc : Thread nD τ).loc main_arg23)) (m ((c.tc : Thread nD τ).loc main_arg24))))

/-- The new hidden state  o · tanh c'  of the argument arrays. -/
def hTerm : Buf (Elt F) ((c.tc : Thread nD τ).loc main_v88) :=
  mulf (hgate (m ((c.tc : Thread nD τ).loc main_arg0)) (m ((c.tc : Thread nD τ).loc main_arg1)) (m ((c.tc : Thread nD τ).loc main_arg2))
      (m ((c.tc : Thread nD τ).loc main_arg15)) (m ((c.tc : Thread nD τ).loc main_arg16)) (m ((c.tc : Thread nD τ).loc main_arg17)) (m ((c.tc : Thread nD τ).loc main_arg18))
      (m ((c.tc : Thread nD τ).loc main_arg19)) (m ((c.tc : Thread nD τ).loc main_arg20)))
    (Host.tanh (cTerm m c))

/-- The term the run states for the first result is the new hidden state: the same operations in the same order. -/
theorem res_eq : Cert.ReferenceIdeal.Value.res_main_v88 m c = hTerm m c := by
  unfold Cert.ReferenceIdeal.Value.res_main_v88 hTerm cTerm hgate hcand hsig hone hlin
  rfl

/-- The reference's run, its two results stated as the compositions above. -/
theorem run_terms (ρ : Dev nD → PrngReg) :
    θ_run defs (onTc (τ := τ) (main (F := F))) ⟨m, fun _ => 0, ρ⟩ fun r => ∀ c : Dev nD,
      r.2.mem ((c.tc : Thread nD τ).loc main_v88) = hTerm m c
      ∧ r.2.mem ((c.tc : Thread nD τ).loc main_v68) = cTerm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono
    (fun _ h c => ⟨(h c).1.trans (res_eq m c),
      (h c).2.1.trans (by unfold cTerm hgate hcand hsig hone hlin; rfl),
      (h c).2.2⟩)
    (Cert.ReferenceIdeal.Value.run m ρ)

end Blocks

/-! ## The blocks read at an entry, over the extended reals -/

/-- The product's dimension numbers are those of rows by columns. -/
theorem dot_rowsCols :
    Cert.Lib.DotRowsCols.RowsCols (n := 8192) (K := 2048) (c := 2048) dot_S8192x2048_S2048x2048_S8192x2048_1_0_0_1_n_n :=
  ⟨rfl, rfl, rfl, rfl, rfl, rfl⟩

/-- The hyperbolic tangent of an array, at an index. -/
theorem hostTanh_apply {s : Shape} {φ : FTy} (a : FVec Ideal s φ) (i : s.Idx) : Host.tanh a i = Ideal.tanh (a i) := rfl

/-- The affine projection at entry (p, q):  ( ∑ k, x (p, k) · w (q, k) ) + b q . -/
theorem hlin_apply (x : FVec Ideal S8192x2048 .f32) (w : FVec Ideal S2048x2048 .f32) (b : FVec Ideal S2048 .f32)
    (p : Fin 8192) (q : Fin 2048) : hlin x w b (ix2 p q) = Cert.Cell.lin x w b p q := by
  unfold hlin Cert.Cell.lin
  rw [addf_apply, Cert.Cell.Proj.dotGeneral_transposed_apply dot_rowsCols, Cert.Cell.Proj.host_bias_apply]

/-- The expanded logistic function, at an index, is the logistic function: the repeated scalar reads 1 everywhere. -/
theorem hsig_apply (t : FVec Ideal S8192x2048 .f32) (i : S8192x2048.Idx) : hsig t i = Ideal.logistic (t i) := by
  unfold hsig hone
  rw [hostDivf_apply, addf_apply, broadcastInDim_scalar_apply, constant_apply, Ideal.ofBits_one_f32]
  exact Cert.Cell.Proj.logistic_expanded (t i)

/-- A gate at entry (p, q). -/
theorem hgate_apply (x h c : FVec Ideal S8192x2048 .f32) (wx : FVec Ideal S2048x2048 .f32) (bx : FVec Ideal S2048 .f32)
    (wh : FVec Ideal S2048x2048 .f32) (bh : FVec Ideal S2048 .f32) (wc : FVec Ideal S2048x2048 .f32) (bc : FVec Ideal S2048 .f32)
    (p : Fin 8192) (q : Fin 2048) :
    hgate x h c wx bx wh bh wc bc (ix2 p q)
      = Ideal.logistic (Cert.Cell.lin x wx bx p q + Cert.Cell.lin h wh bh p q + Ideal.tanh (Cert.Cell.lin c wc bc p q)) := by
  unfold hgate
  rw [hsig_apply, addf_apply, addf_apply, hostTanh_apply, hlin_apply, hlin_apply, hlin_apply]

/-- The candidate at entry (p, q). -/
theorem hcand_apply (x h : FVec Ideal S8192x2048 .f32) (wx : FVec Ideal S2048x2048 .f32) (bx : FVec Ideal S2048 .f32)
    (wh : FVec Ideal S2048x2048 .f32) (bh : FVec Ideal S2048 .f32) (p : Fin 8192) (q : Fin 2048) :
    hcand x h wx bx wh bh (ix2 p q) = Ideal.tanh (Cert.Cell.lin x wx bx p q + Cert.Cell.lin h wh bh p q) := by
  unfold hcand
  rw [hostTanh_apply, addf_apply, hlin_apply, hlin_apply]

/-! ## The two results as the cell's arrays -/

/-- The new cell state of a cell's arguments, as the reference composes it. -/
def hC (A : Cert.Cell.Args) : FVec Ideal S8192x2048 .f32 :=
  addf (mulf (hgate A.x A.h A.c A.wxf A.bxf A.whf A.bhf A.wcf A.bcf) A.c)
    (mulf (hgate A.x A.h A.c A.wxi A.bxi A.whi A.bhi A.wci A.bci) (hcand A.x A.h A.wxg A.bxg A.whg A.bhg))

/-- The new hidden state of a cell's arguments, as the reference composes it. -/
def hH (A : Cert.Cell.Args) : FVec Ideal S8192x2048 .f32 :=
  mulf (hgate A.x A.h A.c A.wxo A.bxo A.who A.bho A.wco A.bco) (Host.tanh (hC A))

theorem hC_apply (A : Cert.Cell.Args) (p : Fin 8192) (q : Fin 2048) : hC A (ix2 p q) = Cert.Cell.cNew A p q := by
  unfold hC Cert.Cell.cNew Cert.Cell.gateF Cert.Cell.gateI Cert.Cell.gate Cert.Cell.cand
  rw [addf_apply, mulf_apply, mulf_apply, hgate_apply, hgate_apply, hcand_apply]

theorem hH_apply (A : Cert.Cell.Args) (p : Fin 8192) (q : Fin 2048) : hH A (ix2 p q) = Cert.Cell.hNew A p q := by
  unfold hH Cert.Cell.hNew Cert.Cell.gateO Cert.Cell.gate
  rw [mulf_apply, hgate_apply, hostTanh_apply, hC_apply]

/-- Entry by entry, the composed new cell state is the cell's. -/
theorem hC_eq (A : Cert.Cell.Args) : hC A = Cert.Cell.cArr A :=
  funext fun i => (congrArg (hC A) (eq_ix2 i)).trans (hC_apply A (i 0) (i 1))

/-- Entry by entry, the composed new hidden state is the cell's. -/
theorem hH_eq (A : Cert.Cell.Args) : hH A = Cert.Cell.hArr A :=
  funext fun i => (congrArg (hH A) (eq_ix2 i)).trans (hH_apply A (i 0) (i 1))

/-- The reference's 25 argument arrays, as launched, as the cell's arguments. -/
def args (m : (ℓ : Loc nD τ sig) → Buf (Elt Ideal) ℓ) (c : Dev nD) : Cert.Cell.Args :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9), m ((c.tc : Thread nD τ).loc main_arg10), m ((c.tc : Thread nD τ).loc main_arg11),
    m ((c.tc : Thread nD τ).loc main_arg12), m ((c.tc : Thread nD τ).loc main_arg13), m ((c.tc : Thread nD τ).loc main_arg14),
    m ((c.tc : Thread nD τ).loc main_arg15), m ((c.tc : Thread nD τ).loc main_arg16), m ((c.tc : Thread nD τ).loc main_arg17),
    m ((c.tc : Thread nD τ).loc main_arg18), m ((c.tc : Thread nD τ).loc main_arg19), m ((c.tc : Thread nD τ).loc main_arg20),
    m ((c.tc : Thread nD τ).loc main_arg21), m ((c.tc : Thread nD τ).loc main_arg22), m ((c.tc : Thread nD τ).loc main_arg23),
    m ((c.tc : Thread nD τ).loc main_arg24)⟩

/-- The composed new cell state of the launched arrays is the cell's array. -/
theorem cTerm_eq (m : (ℓ : Loc nD τ sig) → Buf (Elt Ideal) ℓ) (c : Dev nD) :
    cTerm m c = Cert.Cell.cArr (args m c) :=
  (show cTerm m c = hC (args m c) from rfl).trans (hC_eq (args m c))

/-- The composed new hidden state of the launched arrays is the cell's array. -/
theorem hTerm_eq (m : (ℓ : Loc nD τ sig) → Buf (Elt Ideal) ℓ) (c : Dev nD) :
    hTerm m c = Cert.Cell.hArr (args m c) :=
  (show hTerm m c = hH (args m c) from rfl).trans (hH_eq (args m c))

/-- On every device, from any memory with zero counters: every weakly fair execution of the reference terminates with
    the first result the cell's new hidden state, the second its new cell state, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v88) = Cert.Cell.hArr (args m c)
      ∧ r.2.mem ((c.tc : Thread nD τ).loc main_v68) = Cert.Cell.cArr (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono
    (fun _ h c => ⟨(h c).1.trans (hTerm_eq m c), (h c).2.1.trans (cTerm_eq m c), (h c).2.2⟩)
    (run_terms (F := Ideal) m ρ)

end Cert.ReferenceIdeal.RefValue

end
-- ==== Proof.lean ====
/-
  The certificate of the LSTM cell kernel against its jnp reference, over the extended reals.

  Both programs compute, entry by entry, the cell of Proof/Spec.lean:  i, f, o = σ( lin x + lin h + tanh (lin c) ),
  g = tanh( lin x + lin h ),  c' = f · c + i · g,  h' = o · tanh c',  with  lin v w b (p, q) = ( ∑ k, v (p, k) · w (q, k) ) + b q.
  The kernel computes a 512 × 128 block of each result per grid point from the rows and weight rows the point stages
  (Proof/Body.lean, Proof/Piece.lean, Proof/Reads.lean), and the 256 blocks tile the results (Proof/Final.lean); the reference
  computes the whole arrays at once and spells the logistic function as 1 / (1 + e^(−t)) (Proof/RefCell.lean).  The sums are
  grouped alike on both sides, so the two results agree for any extended-real inputs and the precondition is not used.
  The three frames are the programs' runs with the results dropped; the idealization rewrote nothing.
-/
import proofs.«158424_j80350248173768_1_alg».proof.Defs
import proofs.«158424_j80350248173768_1_alg».proof.Proof.Gen.Kernel
import proofs.«158424_j80350248173768_1_alg».proof.Proof.KernelFrame
import proofs.«158424_j80350248173768_1_alg».proof.Proof.Gen.KernelIdeal
import proofs.«158424_j80350248173768_1_alg».proof.Proof.KernelIdealFrame
import proofs.«158424_j80350248173768_1_alg».proof.Proof.KernelIdealValue
import proofs.«158424_j80350248173768_1_alg».proof.Proof.Gen.ReferenceIdeal
import proofs.«158424_j80350248173768_1_alg».proof.Proof.Gen.ReferenceIdeal.Run
import proofs.«158424_j80350248173768_1_alg».proof.Proof.Gen.Pre_finite_inputs
import proofs.«158424_j80350248173768_1_alg».proof.Proof.Final
import proofs.«158424_j80350248173768_1_alg».proof.Proof.RefCell
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

set_option maxHeartbeats 2000000 in
/-- From memories agreeing on the 25 arguments, both programs end with the cell's new hidden state and new cell state of those
    arguments. -/
theorem algebraic : Cert.algebraic_KernelIdeal_ReferenceIdeal := by
  intro m ρ m' ρ' _ hagree
  refine ⟨fun c => Cert.Cell.hArr (Cert.KernelIdeal.Reads.args m c), fun c => Cert.Cell.cArr (Cert.KernelIdeal.Reads.args m c),
    Cert.KernelIdeal.Final.run m ρ, ?_⟩
  refine (θ_run Cert.ReferenceIdeal.defs _ _).mono (fun _ h c => ?_) (Cert.ReferenceIdeal.RefValue.run m' ρ')
  have e : Cert.ReferenceIdeal.RefValue.args m' c = Cert.KernelIdeal.Reads.args m c := by
    unfold Cert.ReferenceIdeal.RefValue.args Cert.KernelIdeal.Reads.args
    rw [Cert.Cell.Args.mk.injEq]
    exact hagree c
  exact ⟨(h c).1.trans (congrArg Cert.Cell.hArr e), (h c).2.1.trans (congrArg Cert.Cell.cArr e), (h c).2.2⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
